-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x100 : Shape := ⟨2, ![1024, 100]⟩
abbrev S1024 : Shape := ⟨1, ![1024]⟩
abbrev S8x16 : Shape := ⟨2, ![8, 16]⟩
abbrev S116x256 : Shape := ⟨2, ![116, 256]⟩
abbrev S256 : Shape := ⟨1, ![256]⟩
abbrev S256x512 : Shape := ⟨2, ![256, 512]⟩
abbrev S512 : Shape := ⟨1, ![512]⟩
abbrev S512x1024 : Shape := ⟨2, ![512, 1024]⟩
abbrev S1024x66049 : Shape := ⟨2, ![1024, 66049]⟩
abbrev S66049 : Shape := ⟨1, ![66049]⟩
abbrev S_ : Shape := ⟨0, ![]⟩

class Facts : Prop where
  bcast_S_S1024x100 : S_.BroadcastsInDim S1024x100 (![] : Fin 0 → Fin S1024x100.rank)
  reducesTo_S1024x100_S_d0_1 : S1024x100.ReducesTo [0, 1] S_
  h_S_ : 0 < S_.numel
  bcast_S_S8x16 : S_.BroadcastsInDim S8x16 (![] : Fin 0 → Fin S8x16.rank)
  reducesTo_S8x16_S_d0_1 : S8x16.ReducesTo [0, 1] S_
  bcast_S_S116x256 : S_.BroadcastsInDim S116x256 (![] : Fin 0 → Fin S116x256.rank)
  reducesTo_S116x256_S_d0_1 : S116x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x66049 : S_.BroadcastsInDim S1024x66049 (![] : Fin 0 → Fin S1024x66049.rank)
  reducesTo_S1024x66049_S_d0_1 : S1024x66049.ReducesTo [0, 1] S_
  bcast_S_S66049 : S_.BroadcastsInDim S66049 (![] : Fin 0 → Fin S66049.rank)
  reducesTo_S66049_S_d0 : S66049.ReducesTo [0] S_

variable [Facts]

def fn_part2 {F : FTy → Type} [FloatOps F] (main_arg8 : FVec F S1024 .f32) (main_arg9 : FVec F S1024x66049 .f32) (main_arg10 : FVec F S66049 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x66049 .f32 := Host.absf main_arg9
  let main_cst_14 : FVec F S_ .f32 := constant S_ .f32 0x7F800000#32
  let main_v40 : FVec F S1024x66049 .f32 := broadcastInDim S1024x66049 ![] bcast_S_S1024x66049 main_cst_14
  let main_v41 : IVec S1024x66049 1 := cmpf .olt main_v39 main_v40
  let main_c_15 : IVec S_ 1 := constantI S_ 1 1#1
  let main_v42 : IVec S_ 1 := (fun x v => Host.reduce IntOp.andi x v reducesTo_S1024x66049_S_d0_1 h_S_) main_v41 main_c_15
  let main_v43 : IVec S_ 1 := andi main_v38 main_v42
  let main_v44 : FVec F S66049 .f32 := Host.absf main_arg10
  let main_cst_16 : FVec F S_ .f32 := constant S_ .f32 0x7F800000#32
  let main_v45 : FVec F S66049 .f32 := broadcastInDim S66049 ![] bcast_S_S66049 main_cst_16
  let main_v46 : IVec S66049 1 := cmpf .olt main_v44 main_v45
  let main_c_17 : IVec S_ 1 := constantI S_ 1 1#1
  let main_v47 : IVec S_ 1 := (fun x v => Host.reduce IntOp.andi x v reducesTo_S66049_S_d0 h_S_) main_v46 main_c_17
  let main_v48 : IVec S_ 1 := andi main_v43 main_v47
  main_v48

def fn_part1 {F : FTy → Type} [FloatOps F] (main_arg5 : FVec F S256x512 .f32) (main_arg6 : FVec F S512 .f32) (main_arg7 : FVec F S512x1024 .f32) (main_arg8 : FVec F S1024 .f32) (main_arg9 : FVec F S1024x66049 .f32) (main_arg10 : FVec F S66049 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x512 .f32 := Host.absf main_arg5
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1024 .f32 := Host.absf main_arg7
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg8 main_arg9 main_arg10 main_v33

def fn {F : FTy → Type} [FloatOps F] (main_arg0 : FVec F S1024x100 .f32) (main_arg1 : IVec S1024 32) (main_arg2 : FVec F S8x16 .f32) (main_arg3 : FVec F S116x256 .f32) (main_arg4 : FVec F S256 .f32) (main_arg5 : FVec F S256x512 .f32) (main_arg6 : FVec F S512 .f32) (main_arg7 : FVec F S512x1024 .f32) (main_arg8 : FVec F S1024 .f32) (main_arg9 : FVec F S1024x66049 .f32) (main_arg10 : FVec F S66049 .f32) : IVec S_ 1 :=
  let main_v0 : FVec F S1024x100 .f32 := Host.absf main_arg0
  let main_cst : FVec F S_ .f32 := constant S_ .f32 0x7F800000#32
  let main_v1 : FVec F S1024x100 .f32 := broadcastInDim S1024x100 ![] bcast_S_S1024x100 main_cst
  let main_v2 : IVec S1024x100 1 := cmpf .olt main_v0 main_v1
  let main_c : IVec S_ 1 := constantI S_ 1 1#1
  let main_v3 : IVec S_ 1 := (fun x v => Host.reduce IntOp.andi x v reducesTo_S1024x100_S_d0_1 h_S_) main_v2 main_c
  let main_v4 : FVec F S8x16 .f32 := Host.absf main_arg2
  let main_cst_0 : FVec F S_ .f32 := constant S_ .f32 0x7F800000#32
  let main_v5 : FVec F S8x16 .f32 := broadcastInDim S8x16 ![] bcast_S_S8x16 main_cst_0
  let main_v6 : IVec S8x16 1 := cmpf .olt main_v4 main_v5
  let main_c_1 : IVec S_ 1 := constantI S_ 1 1#1
  let main_v7 : IVec S_ 1 := (fun x v => Host.reduce IntOp.andi x v reducesTo_S8x16_S_d0_1 h_S_) main_v6 main_c_1
  let main_v8 : IVec S_ 1 := andi main_v3 main_v7
  let main_v9 : FVec F S116x256 .f32 := Host.absf main_arg3
  let main_cst_2 : FVec F S_ .f32 := constant S_ .f32 0x7F800000#32
  let main_v10 : FVec F S116x256 .f32 := broadcastInDim S116x256 ![] bcast_S_S116x256 main_cst_2
  let main_v11 : IVec S116x256 1 := cmpf .olt main_v9 main_v10
  let main_c_3 : IVec S_ 1 := constantI S_ 1 1#1
  let main_v12 : IVec S_ 1 := (fun x v => Host.reduce IntOp.andi x v reducesTo_S116x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S1024x100 : Shape := ⟨2, ![1024, 100]⟩
abbrev S1024 : Shape := ⟨1, ![1024]⟩
abbrev S8x16 : Shape := ⟨2, ![8, 16]⟩
abbrev S116x256 : Shape := ⟨2, ![116, 256]⟩
abbrev S256 : Shape := ⟨1, ![256]⟩
abbrev S256x512 : Shape := ⟨2, ![256, 512]⟩
abbrev S512 : Shape := ⟨1, ![512]⟩
abbrev S512x1024 : Shape := ⟨2, ![512, 1024]⟩
abbrev S1024x66049 : Shape := ⟨2, ![1024, 66049]⟩
abbrev S66049 : Shape := ⟨1, ![66049]⟩
abbrev S_ : Shape := ⟨0, ![]⟩
abbrev S1024x1 : Shape := ⟨2, ![1024, 1]⟩
abbrev S1024x16 : Shape := ⟨2, ![1024, 16]⟩
abbrev S1024x116 : Shape := ⟨2, ![1024, 116]⟩
abbrev S1024x128 : Shape := ⟨2, ![1024, 128]⟩
abbrev S128x256 : Shape := ⟨2, ![128, 256]⟩
abbrev S1x256 : Shape := ⟨2, ![1, 256]⟩
abbrev S1x512 : Shape := ⟨2, ![1, 512]⟩
abbrev S1x1024 : Shape := ⟨2, ![1, 1024]⟩
abbrev S1024x1024 : Shape := ⟨2, ![1024, 1024]⟩
abbrev S512x128 : Shape := ⟨2, ![512, 128]⟩
abbrev S512x256 : Shape := ⟨2, ![512, 256]⟩
abbrev S512x512 : Shape := ⟨2, ![512, 512]⟩
abbrev S1024x66560 : Shape := ⟨2, ![1024, 66560]⟩
abbrev S66560 : Shape := ⟨1, ![66560]⟩
abbrev S1x66560 : Shape := ⟨2, ![1, 66560]⟩
abbrev S1024x1280 : Shape := ⟨2, ![1024, 1280]⟩
abbrev S1x1280 : Shape := ⟨2, ![1, 1280]⟩
abbrev S1024x257x257 : Shape := ⟨3, ![1024, 257, 257]⟩

abbrev nBuf : Space → Nat
  | .hbm => 46
  | .vmem => 17
  | .smem => 0
  | _ => 0

abbrev bufTy : (tb : Table) → Fin (tcTables nBuf tb) → BufTy
  | .hbm, ⟨0, _⟩ => ⟨S1024x100, .f32⟩
  | .hbm, ⟨1, _⟩ => ⟨S1024, .i32⟩
  | .hbm, ⟨2, _⟩ => ⟨S8x16, .f32⟩
  | .hbm, ⟨3, _⟩ => ⟨S116x256, .f32⟩
  | .hbm, ⟨4, _⟩ => ⟨S256, .f32⟩
  | .hbm, ⟨5, _⟩ => ⟨S256x512, .f32⟩
  | .hbm, ⟨6, _⟩ => ⟨S512, .f32⟩
  | .hbm, ⟨7, _⟩ => ⟨S512x1024, .f32⟩
  | .hbm, ⟨8, _⟩ => ⟨S1024, .f32⟩
  | .hbm, ⟨9, _⟩ => ⟨S1024x66049, .f32⟩
  | .hbm, ⟨10, _⟩ => ⟨S66049, .f32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S1024x1, .i32⟩
  | .hbm, ⟨19, _⟩ => ⟨S1024x16, .f32⟩
  | .hbm, ⟨20, _⟩ => ⟨S1024x116, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S1024x128, .bf16⟩
  | .hbm, ⟨25, _⟩ => ⟨S_, .i32⟩
  | .hbm, ⟨26, _⟩ => ⟨S_, .f32⟩
  | .hbm, ⟨27, _⟩ => ⟨S128x256, .f32⟩
  | .hbm, ⟨28, _⟩ => ⟨S128x256, .bf16⟩
  | .hbm, ⟨29, _⟩ => ⟨S1x256, .f32⟩
  | .hbm, ⟨30, _⟩ => ⟨S256x512, .bf16⟩
  | .hbm, ⟨31, _⟩ => ⟨S1x512, .f32⟩
  | .hbm, ⟨32, _⟩ => ⟨S512x1024, .bf16⟩
  | .hbm, ⟨33, _⟩ => ⟨S1x1024, .f32⟩
  | .hbm, ⟨34, _⟩ => ⟨S1024x1024, .bf16⟩
  | .hbm, ⟨35, _⟩ => ⟨S_, .i32⟩
  | .hbm, ⟨36, _⟩ => ⟨S_, .f32⟩
  | .hbm, ⟨37, _⟩ => ⟨S1024x66560, .f32⟩
  | .hbm, ⟨38, _⟩ => ⟨S1024x66560, .bf16⟩
  | .hbm, ⟨39, _⟩ => ⟨S_, .i32⟩
  | .hbm, ⟨40, _⟩ => ⟨S_, .f32⟩
  | .hbm, ⟨41, _⟩ => ⟨S66560, .f32⟩
  | .hbm, ⟨42, _⟩ => ⟨S1x66560, .f32⟩
  | .hbm, ⟨43, _⟩ => ⟨S1024x66560, .f32⟩
  | .hbm, ⟨44, _⟩ => ⟨S1024x66049, .f32⟩
  | .hbm, ⟨45, _⟩ => ⟨S1024x257x257, .f32⟩
  | .local _ .vmem, ⟨0, _⟩ => ⟨S512x128, .bf16⟩
  | .local _ .vmem, ⟨1, _⟩ => ⟨S512x128, .bf16⟩
  | .local _ .vmem, ⟨2, _⟩ => ⟨S128x256, .bf16⟩
  | .local _ .vmem, ⟨3, _⟩ => ⟨S1x256, .f32⟩
  | .local _ .vmem, ⟨4, _⟩ => ⟨S256x512, .bf16⟩
  | .local _ .vmem, ⟨5, _⟩ => ⟨S1x512, .f32⟩
  | .local _ .vmem, ⟨6, _⟩ => ⟨S512x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1280, .bf16⟩
  | .local _ .vmem, ⟨12, _⟩ => ⟨S1024x1280, .bf16⟩
  | .local _ .vmem, ⟨13, _⟩ => ⟨S1x1280, .f32⟩
  | .local _ .vmem, ⟨14, _⟩ => ⟨S1x1280, .f32⟩
  | .local _ .vmem, ⟨15, _⟩ => ⟨S1024x1280, .f32⟩
  | .local _ .vmem, ⟨16, _⟩ => ⟨S1024x1280, .f32⟩
  | _, _ => ⟨S1024x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_call1_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_call2_v0 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_call3_v0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![52], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x1280 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  concatenates_S1024x100_S1024x16_S1024x116_d1 : Shape.Concatenates [S1024x100, S1024x16] S1024x116 1
  pads_S1024x116_S1024x128_000_0120 : S1024x116.Pads (![0, 0] : Fin 2 → Nat) ![0, 12] ![0, 0] S1024x128
  h_S_ : 0 < S_.numel
  bitsLt_bf16_f32 : FTy.bits .bf16 < FTy.bits .f32
  pads_S116x256_S128x256_0120_000 : S116x256.Pads (![0, 0] : Fin 2 → Nat) ![12, 0] ![0, 0] S128x256
  shapeCasts_S256_S1x256 : S256.ShapeCasts S1x256
  shapeCasts_S512_S1x512 : S512.ShapeCasts S1x512
  shapeCasts_S1024_S1x1024 : S1024.ShapeCasts S1x1024
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  pads_S1024x66049_S1024x66560_000_05110 : S1024x66049.Pads (![0, 0] : Fin 2 → Nat) ![0, 511] ![0, 0] S1024x66560
  pads_S66049_S66560_05110 : S66049.Pads (![0] : Fin 1 → Nat) ![511] ![0] S66560
  shapeCasts_S66560_S1x66560 : S66560.ShapeCasts S1x66560
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1024x1280 : S1x1280.Broadcasts S1024x1280
  slices_S1024x66560_S1024x66049_0_0 : S1024x66560.Slices ![0, 0] S1024x66049
  shapeCasts_S1024x66049_S1024x257x257 : S1024x66049.ShapeCasts S1024x257x257
  gather_S8x16_S1024x1_S1024x16_1_0_n_n_0_1_116_wf : GatherDims.WF S8x16 S1024x1 S1024x16 [1] [0] [] [0] [] 1 ![1, 16]
  dot_S512x128_S128x256_S512x256_1_0_0_1_n_n_wf : DotDims.WF S512x128 S128x256 S512x256 [1] [0] [0] [1] [] []
  dot_S512x256_S256x512_S512x512_1_0_0_1_n_n_wf : DotDims.WF S512x256 S256x512 S512x512 [1] [0] [0] [1] [] []
  dot_S512x512_S512x1024_S512x1024_1_0_0_1_n_n_wf : DotDims.WF S512x512 S512x1024 S512x1024 [1] [0] [0] [1] [] []
  dot_S1024x1024_S1024x1280_S1024x1280_1_0_0_1_n_n_wf : DotDims.WF S1024x1024 S1024x1280 S1024x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S1024x128.size a
  hwx0_0 : ∀ i : grid0.Coords, EltTy.bits .bf16 = 32 ∨ (Rect.block (s := S1024x128) S512x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .bf16 = 32 ∨ (Rect.block (s := S512x1024) S512x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S1024x1024.size a
  hwx0_7 : ∀ i : grid0.Coords, EltTy.bits .bf16 = 32 ∨ (Rect.block (s := S1024x1024) S512x1024.size (cc0_transform_7 i) (hinb0_7 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S1024x1024.size a
  hwx1_0 : ∀ i : grid1.Coords, EltTy.bits .bf16 = 32 ∨ (Rect.block (s := S1024x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1280.size a ≤ S1024x66560.size a
  hwx1_1 : ∀ i : grid1.Coords, EltTy.bits .bf16 = 32 ∨ (Rect.block (s := S1024x66560) S1024x1280.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1280.size a ≤ S1x66560.size a
  hwx1_2 : ∀ i : grid1.Coords, EltTy.bits .f32 = 32 ∨ (Rect.block (s := S1x66560) S1x1280.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1280.size a ≤ S1024x66560.size a
  hwx1_3 : ∀ i : grid1.Coords, EltTy.bits .f32 = 32 ∨ (Rect.block (s := S1024x66560) S1024x1280.size (cc1_transform_3 i) (hinb1_3 i)).WholeWords (EltTy.packing .f32)

variable [Facts₀]

def gather_S8x16_S1024x1_S1024x16_1_0_n_n_0_1_116 : GatherDims S8x16 S1024x1 S1024x16 where
  offsetDims := [1]
  collapsedSliceDims := [0]
  operandBatchingDims := []
  startIndicesBatchingDims := []
  startIndexMap := [0]
  indexVectorDim := 1
  sliceSizes := ![1, 16]
  wf := gather_S8x16_S1024x1_S1024x16_1_0_n_n_0_1_116_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S1024x1024_S1024x1280_S1024x1280_1_0_0_1_n_n : DotDims S1024x1024 S1024x1280 S1024x1280 where
  lhsContracting := [1]
  rhsContracting := [0]
  lhsNonContracting := [0]
  rhsNonContracting := [1]
  lhsBatch := []
  rhsBatch := []
  wf := dot_S1024x1024_S1024x1280_S1024x1280_1_0_0_1_n_n_wf

abbrev win0_0 : Pipeline.Window sig grid0 :=
  Pipeline.Window.ofSpec (Memref.whole main_v9) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v17) S1024x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1024x1280.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x1280.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1024x1280.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024x100 : Shape := ⟨2, ![1024, 100]⟩
abbrev S1024 : Shape := ⟨1, ![1024]⟩
abbrev S8x16 : Shape := ⟨2, ![8, 16]⟩
abbrev S116x256 : Shape := ⟨2, ![116, 256]⟩
abbrev S256 : Shape := ⟨1, ![256]⟩
abbrev S256x512 : Shape := ⟨2, ![256, 512]⟩
abbrev S512 : Shape := ⟨1, ![512]⟩
abbrev S512x1024 : Shape := ⟨2, ![512, 1024]⟩
abbrev S1024x66049 : Shape := ⟨2, ![1024, 66049]⟩
abbrev S66049 : Shape := ⟨1, ![66049]⟩
abbrev S_ : Shape := ⟨0, ![]⟩
abbrev S1024x1 : Shape := ⟨2, ![1024, 1]⟩
abbrev S1024x16 : Shape := ⟨2, ![1024, 16]⟩
abbrev S1024x116 : Shape := ⟨2, ![1024, 116]⟩
abbrev S1024x256 : Shape := ⟨2, ![1024, 256]⟩
abbrev S1x256 : Shape := ⟨2, ![1, 256]⟩
abbrev S1024x512 : Shape := ⟨2, ![1024, 512]⟩
abbrev S1x512 : Shape := ⟨2, ![1, 512]⟩
abbrev S1024x1024 : Shape := ⟨2, ![1024, 1024]⟩
abbrev S1x1024 : Shape := ⟨2, ![1, 1024]⟩
abbrev S1x66049 : Shape := ⟨2, ![1, 66049]⟩
abbrev S1024x257x257 : Shape := ⟨3, ![1024, 257, 257]⟩

abbrev nBuf : Space → Nat
  | .hbm => 55
  | .vmem => 0
  | .smem => 0
  | _ => 0

abbrev bufTy : (tb : Table) → Fin (tcTables nBuf tb) → BufTy
  | .hbm, ⟨0, _⟩ => ⟨S1024x100, .f32⟩
  | .hbm, ⟨1, _⟩ => ⟨S1024, .i32⟩
  | .hbm, ⟨2, _⟩ => ⟨S8x16, .f32⟩
  | .hbm, ⟨3, _⟩ => ⟨S116x256, .f32⟩
  | .hbm, ⟨4, _⟩ => ⟨S256, .f32⟩
  | .hbm, ⟨5, _⟩ => ⟨S256x512, .f32⟩
  | .hbm, ⟨6, _⟩ => ⟨S512, .f32⟩
  | .hbm, ⟨7, _⟩ => ⟨S512x1024, .f32⟩
  | .hbm, ⟨8, _⟩ => ⟨S1024, .f32⟩
  | .hbm, ⟨9, _⟩ => ⟨S1024x66049, .f32⟩
  | .hbm, ⟨10, _⟩ => ⟨S66049, .f32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S1024x1, .i32⟩
  | .hbm, ⟨19, _⟩ => ⟨S1024x16, .f32⟩
  | .hbm, ⟨20, _⟩ => ⟨S1024x116, .f32⟩
  | .hbm, ⟨21, _⟩ => ⟨S1024x256, .f32⟩
  | .hbm, ⟨22, _⟩ => ⟨S1x256, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x512, .f32⟩
  | .hbm, ⟨29, _⟩ => ⟨S1x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x1024, .f32⟩
  | .hbm, ⟨36, _⟩ => ⟨S1x1024, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024x1024, .f32⟩
  | .hbm, ⟨41, _⟩ => ⟨S1024x1024, .f32⟩
  | .hbm, ⟨42, _⟩ => ⟨S1024x66049, .f32⟩
  | .hbm, ⟨43, _⟩ => ⟨S1x66049, .f32⟩
  | .hbm, ⟨44, _⟩ => ⟨S1024x66049, .f32⟩
  | .hbm, ⟨45, _⟩ => ⟨S1024x66049, .f32⟩
  | .hbm, ⟨46, _⟩ => ⟨S1024x66049, .f32⟩
  | .hbm, ⟨47, _⟩ => ⟨S1024x66049, .f32⟩
  | .hbm, ⟨48, _⟩ => ⟨S_, .f32⟩
  | .hbm, ⟨49, _⟩ => ⟨S1024x66049, .f32⟩
  | .hbm, ⟨50, _⟩ => ⟨S1024x66049, .f32⟩
  | .hbm, ⟨51, _⟩ => ⟨S_, .f32⟩
  | .hbm, ⟨52, _⟩ => ⟨S1024x66049, .f32⟩
  | .hbm, ⟨53, _⟩ => ⟨S1024x66049, .f32⟩
  | .hbm, ⟨54, _⟩ => ⟨S1024x257x257, .f32⟩
  | _, _ => ⟨S1024x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_cst : Ref sig .tc := ⟨.hbm, 25, rfl⟩
abbrev main_call0_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call1_cst : Ref sig .tc := ⟨.hbm, 32, rfl⟩
abbrev main_call1_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call2_cst : Ref sig .tc := ⟨.hbm, 39, rfl⟩
abbrev main_call2_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst : Ref sig .tc := ⟨.hbm, 48, rfl⟩
abbrev main_v29 : Ref sig .tc := ⟨.hbm, 49, rfl⟩
abbrev main_v30 : Ref sig .tc := ⟨.hbm, 50, rfl⟩
abbrev main_cst_1 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  concatenates_S1024x100_S1024x16_S1024x116_d1 : Shape.Concatenates [S1024x100, S1024x16] S1024x116 1
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  bcast_S66049_S1x66049_1 : S66049.BroadcastsInDim S1x66049 (![1] : Fin 1 → Fin S1x66049.rank)
  bcast_S1x66049_S1024x66049_0_1 : S1x66049.BroadcastsInDim S1024x66049 (![0, 1] : Fin 2 → Fin S1024x66049.rank)
  bcast_S_S1024x66049 : S_.BroadcastsInDim S1024x66049 (![] : Fin 0 → Fin S1024x66049.rank)
  shapeCasts_S1024x66049_S1024x257x257 : S1024x66049.ShapeCasts S1024x257x257
  gather_S8x16_S1024x1_S1024x16_1_0_n_n_0_1_116_wf : GatherDims.WF S8x16 S1024x1 S1024x16 [1] [0] [] [0] [] 1 ![1, 16]
  dot_S1024x116_S116x256_S1024x256_1_0_0_1_n_n_wf : DotDims.WF S1024x116 S116x256 S1024x256 [1] [0] [0] [1] [] []
  dot_S1024x256_S256x512_S1024x512_1_0_0_1_n_n_wf : DotDims.WF S1024x256 S256x512 S1024x512 [1] [0] [0] [1] [] []
  dot_S1024x512_S512x1024_S1024x1024_1_0_0_1_n_n_wf : DotDims.WF S1024x512 S512x1024 S1024x1024 [1] [0] [0] [1] [] []
  dot_S1024x1024_S1024x66049_S1024x66049_1_0_0_1_n_n_wf : DotDims.WF S1024x1024 S1024x66049 S1024x66049 [1] [0] [0] [1] [] []

variable [Facts₀]

def gather_S8x16_S1024x1_S1024x16_1_0_n_n_0_1_116 : GatherDims S8x16 S1024x1 S1024x16 where
  offsetDims := [1]
  collapsedSliceDims := [0]
  operandBatchingDims := []
  startIndicesBatchingDims := []
  startIndexMap := [0]
  indexVectorDim := 1
  sliceSizes := ![1, 16]
  wf := gather_S8x16_S1024x1_S1024x16_1_0_n_n_0_1_116_wf
def dot_S1024x116_S116x256_S1024x256_1_0_0_1_n_n : DotDims S1024x116 S116x256 S1024x256 where
  lhsContracting := [1]
  rhsContracting := [0]
  lhsNonContracting := [0]
  rhsNonContracting := [1]
  lhsBatch := []
  rhsBatch := []
  wf := dot_S1024x116_S116x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x66049_S1024x66049_1_0_0_1_n_n : DotDims S1024x1024 S1024x66049 S1024x66049 where
  lhsContracting := [1]
  rhsContracting := [0]
  lhsNonContracting := [0]
  rhsNonContracting := [1]
  lhsBatch := []
  rhsBatch := []
  wf := dot_S1024x1024_S1024x66049_S1024x66049_1_0_0_1_n_n_wf

class Facts : Prop extends Facts₀ where

variable [Facts]
-- ==== Proof.Dense.lean ====
/-
  A dense layer and the output head as functions of whole matrices, over the extended reals.

  `dense x w b` is the matrix whose entry (i, n) is max (∑ₖ x(i,k) · w(k,n) + b(n)) 0, and `head x w b` has
  entry (i, n) = logistic (∑ₖ x(i,k) · w(k,n) + b(n)).  Both read one row of `x`, one column of `w` and one entry
  of `b`, so a row block of `x` (or a column block of `w` and `b`) gives the matching block of the result.
  Padding the contracted axis with columns of `x` that are zero changes no entry: a product with a zero factor is
  zero on the extended reals, whatever the other factor is.
-/
import Idealize.ShloMosaic.PureOps.Ideal
import Idealize.ShloMosaic.PureOps.Ideal.Laws
import Idealize.ShloMosaic.Lib.ValueIdx

noncomputable section

open scoped BigOperators

namespace Cert.Mlp

open Idealize.ShloMosaic Idealize.ShloMosaic.ValueIdx

/-- An `a × b` matrix of extended reals, indexed as the printed programs index a rank-2 array. -/
abbrev Mat (a b : Nat) : Type := (⟨2, ![a, b]⟩ : Shape).Idx → EReal

/-- The row coordinate of a matrix index, as a number below the row count. -/
abbrev rowOf {a b : Nat} (j : (⟨2, ![a, b]⟩ : Shape).Idx) : Fin a := ⟨(j 0).val, idx2_lt0 j⟩
/-- The column coordinate of a matrix index, as a number below the column count. -/
abbrev colOf {a b : Nat} (j : (⟨2, ![a, b]⟩ : Shape).Idx) : Fin b := ⟨(j 1).val, idx2_lt1 j⟩

/-- The pre-activation: entry (i, n) is ∑ₖ x(i,k) · w(k,n) + b(n). -/
def affine {A K N : Nat} (x : Mat A K) (w : Mat K N) (b : Fin N → EReal) : Mat A N :=
  fun j => (∑ k : Fin K, x (ix2 (rowOf j) k) * w (ix2 k (colOf j))) + b (colOf j)

/-- A dense layer with the rectifier: entry (i, n) is max (∑ₖ x(i,k) · w(k,n) + b(n)) 0. -/
def dense {A K N : Nat} (x : Mat A K) (w : Mat K N) (b : Fin N → EReal) : Mat A N :=
  fun j => max (affine x w b j) 0

/-- The output head: entry (i, n) is logistic (∑ₖ x(i,k) · w(k,n) + b(n)). -/
def head {A K N : Nat} (x : Mat A K) (w : Mat K N) (b : Fin N → EReal) : Mat A N :=
  fun j => Ideal.logistic (affine x w b j)

/-- The one row of a `1 × n` matrix, as a vector. -/
abbrev row0 {n : Nat} (b : Mat 1 n) : Fin n → EReal := fun k => b (ix2 (0 : Fin 1) k)
/-- A rank-1 array as a vector. -/
abbrev vec {n : Nat} (b : (⟨1, ![n]⟩ : Shape).Idx → EReal) : Fin n → EReal := fun k => b (ix1 k)

/-- The pre-activation at (i, n) reads row i of `x`, column n of `w` and entry n of `b`: two sets of operands that
    agree there give the same entry, whatever the two row counts and column counts are. -/
theorem affine_congr {A A' K N N' : Nat} (x : Mat A K) (w : Mat K N) (b : Fin N → EReal)
    (x' : Mat A' K) (w' : Mat K N') (b' : Fin N' → EReal)
    (j : (⟨2, ![A, N]⟩ : Shape).Idx) (j' : (⟨2, ![A', N']⟩ : Shape).Idx)
    (hx : ∀ k : Fin K, x (ix2 (rowOf j) k) = x' (ix2 (rowOf j') k))
    (hw : ∀ k : Fin K, w (ix2 k (colOf j)) = w' (ix2 k (colOf j')))
    (hb : b (colOf j) = b' (colOf j')) :
    affine x w b j = affine x' w' b' j' := by
  unfold affine
  rw [hb]
  exact congrArg (· + b' (colOf j')) (Finset.sum_congr rfl fun k _ => by rw [hx k, hw k])

theorem dense_congr {A A' K N N' : Nat} (x : Mat A K) (w : Mat K N) (b : Fin N → EReal)
    (x' : Mat A' K) (w' : Mat K N') (b' : Fin N' → EReal)
    (j : (⟨2, ![A, N]⟩ : Shape).Idx) (j' : (⟨2, ![A', N']⟩ : Shape).Idx)
    (hx : ∀ k : Fin K, x (ix2 (rowOf j) k) = x' (ix2 (rowOf j') k))
    (hw : ∀ k : Fin K, w (ix2 k (colOf j)) = w' (ix2 k (colOf j')))
    (hb : b (colOf j) = b' (colOf j')) :
    dense x w b j = dense x' w' b' j' := by
  unfold dense
  rw [affine_congr x w b x' w' b' j j' hx hw hb]

theorem head_congr {A A' K N N' : Nat} (x : Mat A K) (w : Mat K N) (b : Fin N → EReal)
    (x' : Mat A' K) (w' : Mat K N') (b' : Fin N' → EReal)
    (j : (⟨2, ![A, N]⟩ : Shape).Idx) (j' : (⟨2, ![A', N']⟩ : Shape).Idx)
    (hx : ∀ k : Fin K, x (ix2 (rowOf j) k) = x' (ix2 (rowOf j') k))
    (hw : ∀ k : Fin K, w (ix2 k (colOf j)) = w' (ix2 k (colOf j')))
    (hb : b (colOf j) = b' (colOf j')) :
    head x w b j = head x' w' b' j' := by
  unfold head
  rw [affine_congr x w b x' w' b' j j' hx hw hb]

/-- A sum over `K + P` indices whose last `P` terms are zero is the sum of the first `K`. -/
theorem sum_pad {K P : Nat} (f : Fin (K + P) → EReal) (g : Fin K → EReal)
    (hlo : ∀ k : Fin K, f (Fin.castAdd P k) = g k) (hhi : ∀ p : Fin P, f (Fin.natAdd K p) = 0) :
    ∑ k, f k = ∑ k, g k := by
  rw [Fin.sum_univ_add, Finset.sum_congr rfl (fun k _ => hlo k), Finset.sum_congr rfl (fun p _ => hhi p),
    Finset.sum_const_zero, add_zero]

/-- PADDING THE CONTRACTED AXIS: if `xp` is `x` with `P` zero columns appended and `wp` agrees with `w` on its first
    `K` rows, the pre-activations are equal entry by entry (the appended products have a zero factor). -/
theorem affine_pad {A K P N : Nat} (x : Mat A K) (w : Mat K N) (b : Fin N → EReal)
    (xp : Mat A (K + P)) (wp : Mat (K + P) N)
    (hx : ∀ (i : Fin A) (k : Fin K), xp (ix2 i (Fin.castAdd P k)) = x (ix2 i k))
    (hx0 : ∀ (i : Fin A) (p : Fin P), xp (ix2 i (Fin.natAdd K p)) = 0)
    (hw : ∀ (k : Fin K) (n : Fin N), wp (ix2 (Fin.castAdd P k) n) = w (ix2 k n)) :
    affine xp wp b = affine x w b := by
  funext j
  unfold affine
  refine congrArg (· + b (colOf j)) (sum_pad _ _ (fun k => by rw [hx, hw]) (fun p => by rw [hx0, zero_mul]))

theorem dense_pad {A K P N : Nat} (x : Mat A K) (w : Mat K N) (b : Fin N → EReal)
    (xp : Mat A (K + P)) (wp : Mat (K + P) N)
    (hx : ∀ (i : Fin A) (k : Fin K), xp (ix2 i (Fin.castAdd P k)) = x (ix2 i k))
    (hx0 : ∀ (i : Fin A) (p : Fin P), xp (ix2 i (Fin.natAdd K p)) = 0)
    (hw : ∀ (k : Fin K) (n : Fin N), wp (ix2 (Fin.castAdd P k) n) = w (ix2 k n)) :
    dense xp wp b = dense x w b := by
  funext j
  unfold dense
  rw [affine_pad x w b xp wp hx hx0 hw]

end Cert.Mlp

end
-- ==== Proof.HostReads.lean ====
/-
  The host operations around the two kernel regions, read back: the padded input and the padded first weight matrix
  the trunk region finds, the padded output weights and bias the head region finds, and the result as the slice and
  reshape of the head region's output array.
-/
import proofs.«116190_j67053029425158_1_alg».proof.Proof.Gen.KernelIdeal.Frame
import proofs.«116190_j67053029425158_1_alg».proof.Proof.Dense
import Idealize.ShloMosaic.Lib.StableHlo.Run
import Idealize.ShloMosaic.Lib.KernelVsHost
import Idealize.ShloMosaic.Lib.Pipeline.Value
import Idealize.ShloMosaic.Lib.ValueIdx

set_option maxRecDepth 16384

noncomputable section

namespace Cert.KernelIdeal.Host

open Cert.KernelIdeal Cert.KernelIdeal.Gen Cert.Mlp Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-! ## The arguments, as matrices and vectors -/

abbrev a0 (c : Dev nD) : (⟨S1024x100, .f32⟩ : BufTy).Contents (Elt Ideal) := m ((c.tc : Thread nD τ).loc main_arg0)
abbrev a1 (c : Dev nD) : (⟨S1024, .i32⟩ : BufTy).Contents (Elt Ideal) := m ((c.tc : Thread nD τ).loc main_arg1)
abbrev a2 (c : Dev nD) : (⟨S8x16, .f32⟩ : BufTy).Contents (Elt Ideal) := m ((c.tc : Thread nD τ).loc main_arg2)
abbrev a3 (c : Dev nD) : Mat 116 256 := m ((c.tc : Thread nD τ).loc main_arg3)
abbrev a4 (c : Dev nD) : (⟨1, ![256]⟩ : Shape).Idx → EReal := m ((c.tc : Thread nD τ).loc main_arg4)
abbrev a5 (c : Dev nD) : Mat 256 512 := m ((c.tc : Thread nD τ).loc main_arg5)
abbrev a6 (c : Dev nD) : (⟨1, ![512]⟩ : Shape).Idx → EReal := m ((c.tc : Thread nD τ).loc main_arg6)
abbrev a7 (c : Dev nD) : Mat 512 1024 := m ((c.tc : Thread nD τ).loc main_arg7)
abbrev a8 (c : Dev nD) : (⟨1, ![1024]⟩ : Shape).Idx → EReal := m ((c.tc : Thread nD τ).loc main_arg8)
abbrev a9 (c : Dev nD) : Mat 1024 66049 := m ((c.tc : Thread nD τ).loc main_arg9)
abbrev a10 (c : Dev nD) : (⟨1, ![66049]⟩ : Shape).Idx → EReal := m ((c.tc : Thread nD τ).loc main_arg10)

/-- The concatenated input: the noise beside the embedding rows gathered at the wrapped order indices. -/
def xcat (c : Dev nD) : Mat 1024 116 :=
  concatenate S1024x116 1 [⟨S1024x100, a0 m c⟩, ⟨S1024x16, (Host.gather gather_S8x16_S1024x1_S1024x16_1_0_n_n_0_1_116 (a2 m c) (broadcastInDim S1024x1 ![0] bcast_S1024_S1024x1_0 (select (cmpi .slt (a1 m c) (broadcastInDim S1024 ![] bcast_S_S1024 (constantI S_ 32 0#32))) (addi (a1 m c) (broadcastInDim S1024 ![] bcast_S_S1024 (constantI S_ 32 8#32))) (a1 m c))))⟩] concatenates_S1024x100_S1024x16_S1024x116_d1

/-- The padding value every `pad` of the program uses: the integer zero converted. -/
abbrev padv : (⟨0, ![]⟩ : Shape).Idx → EReal := sitofp (F := Ideal) .f32 (constantI S_ 32 0#32)

/-! ## What the two regions find, as the host operations' terms -/

/-- The arrays the trunk region finds. -/
abbrev xin (c : Dev nD) : Mat 1024 128 := V5 m ρ c main_v9
abbrev w1 (c : Dev nD) : Mat 128 256 := V5 m ρ c main_v11
abbrev b1 (c : Dev nD) : Mat 1 256 := V5 m ρ c main_v12
abbrev w2 (c : Dev nD) : Mat 256 512 := V5 m ρ c main_v13
abbrev b2 (c : Dev nD) : Mat 1 512 := V5 m ρ c main_v14
abbrev w3 (c : Dev nD) : Mat 512 1024 := V5 m ρ c main_v15
abbrev b3 (c : Dev nD) : Mat 1 1024 := V5 m ρ c main_v16
/-- The arrays the head region finds. -/
abbrev hid (c : Dev nD) : Mat 1024 1024 := V11 m ρ c main_v17
abbrev wout (c : Dev nD) : Mat 1024 66560 := V11 m ρ c main_v19
abbrev bout (c : Dev nD) : Mat 1 66560 := V11 m ρ c main_v21

theorem xin_eq (c : Dev nD) : xin m ρ c
    = truncf (F := Ideal) .bf16 (pad S1024x128 ![0, 0] ![0, 12] ![0, 0] (xcat m c) (padv) pads_S1024x116_S1024x128_000_0120 h_S_) bitsLt_bf16_f32 := by
  show W5 m ρ c (Proc.devRef .tc main_v9) = _
  dsimp only [W5, W4, W3, W2, W1]
  simp only [hostOps0, hostOps0_1, hostOps0_2, hostOps0_3, hostOps0_4]
  after_results
  rfl

theorem w1_eq (c : Dev nD) : w1 m ρ c
    = truncf (F := Ideal) .bf16 (pad S128x256 ![0, 0] ![12, 0] ![0, 0] (a3 m c) (padv) pads_S116x256_S128x256_0120_000 h_S_) bitsLt_bf16_f32 := by
  show W5 m ρ c (Proc.devRef .tc main_v11) = _
  dsimp only [W5, W4, W3, W2, W1]
  simp only [hostOps0, hostOps0_1, hostOps0_2, hostOps0_3, hostOps0_4]
  after_results
  rfl

theorem b1_eq (c : Dev nD) : b1 m ρ c = shapeCast S1x256 (a4 m c) shapeCasts_S256_S1x256 := by
  show W5 m ρ c (Proc.devRef .tc main_v12) = _
  dsimp only [W5, W4, W3, W2, W1]
  simp only [hostOps0, hostOps0_1, hostOps0_2, hostOps0_3, hostOps0_4]
  after_results
  rfl

theorem w2_eq (c : Dev nD) : w2 m ρ c = a5 m c := by
  show W5 m ρ c (Proc.devRef .tc main_v13) = _
  dsimp only [W5, W4, W3, W2, W1]
  simp only [hostOps0, hostOps0_1, hostOps0_2, hostOps0_3, hostOps0_4]
  after_results
  rfl

theorem b2_eq (c : Dev nD) : b2 m ρ c = shapeCast S1x512 (a6 m c) shapeCasts_S512_S1x512 := by
  show W5 m ρ c (Proc.devRef .tc main_v14) = _
  dsimp only [W5, W4, W3, W2, W1]
  simp only [hostOps0, hostOps0_1, hostOps0_2, hostOps0_3, hostOps0_4]
  after_results
  rfl

theorem w3_eq (c : Dev nD) : w3 m ρ c = a7 m c := by
  show W5 m ρ c (Proc.devRef .tc main_v15) = _
  dsimp only [W5, W4, W3, W2, W1]
  simp only [hostOps0, hostOps0_1, hostOps0_2, hostOps0_3, hostOps0_4]
  after_results
  rfl

theorem b3_eq (c : Dev nD) : b3 m ρ c = shapeCast S1x1024 (a8 m c) shapeCasts_S1024_S1x1024 := by
  show W5 m ρ c (Proc.devRef .tc main_v16) = _
  dsimp only [W5, W4, W3, W2, W1]
  simp only [hostOps0, hostOps0_1, hostOps0_2, hostOps0_3, hostOps0_4]
  after_results
  rfl

/-- An argument array the trunk region does not touch is, at the region's exit, as launched. -/
theorem W6_arg9 (c : Dev nD) : W6 m ρ c (Proc.devRef .tc main_arg9) = m ((c.tc : Thread nD τ).loc main_arg9) := by
  refine (W6_of_ne m ρ c main_arg9 (by decide)).trans ?_
  dsimp only [W5, W4, W3, W2, W1]
  simp only [hostOps0, hostOps0_1, hostOps0_2, hostOps0_3, hostOps0_4]
  after_results
  all_goals rfl
theorem W6_arg10 (c : Dev nD) : W6 m ρ c (Proc.devRef .tc main_arg10) = m ((c.tc : Thread nD τ).loc main_arg10) := by
  refine (W6_of_ne m ρ c main_arg10 (by decide)).trans ?_
  dsimp only [W5, W4, W3, W2, W1]
  simp only [hostOps0, hostOps0_1, hostOps0_2, hostOps0_3, hostOps0_4]
  after_results
  all_goals rfl

/-- The head region finds the trunk region's output array as the trunk region left it. -/
theorem hid_eq (c : Dev nD) : hid m ρ c = (dat0 (V5 m ρ) c).arrAt 7 cfg0.N := by
  show W11 m ρ c (Proc.devRef .tc main_v17) = _
  dsimp only [W11, W10, W9, W8, W7]
  simp only [hostOps1, hostOps1_1, hostOps1_2, hostOps1_3, hostOps1_4]
  after_results
  exact W6_arr m ρ c 7

theorem wout_eq (c : Dev nD) : wout m ρ c
    = truncf (F := Ideal) .bf16 (pad S1024x66560 ![0, 0] ![0, 511] ![0, 0] (a9 m c) (padv) pads_S1024x66049_S1024x66560_000_05110 h_S_) bitsLt_bf16_f32 := by
  show W11 m ρ c (Proc.devRef .tc main_v19) = _
  dsimp only [W11, W10, W9, W8, W7]
  simp only [hostOps1, hostOps1_1, hostOps1_2, hostOps1_3, hostOps1_4]
  after_results
  rw [W6_arg9]
  all_goals rfl

theorem bout_eq (c : Dev nD) : bout m ρ c
    = shapeCast S1x66560 (pad S66560 ![0] ![511] ![0] (a10 m c) (padv) pads_S66049_S66560_05110 h_S_) shapeCasts_S66560_S1x66560 := by
  show W11 m ρ c (Proc.devRef .tc main_v21) = _
  dsimp only [W11, W10, W9, W8, W7]
  simp only [hostOps1, hostOps1_1, hostOps1_2, hostOps1_3, hostOps1_4]
  after_results
  rw [W6_arg10]
  all_goals rfl

/-- The head region's output array after the region, and the program's result. -/
abbrev outArr (c : Dev nD) : Mat 1024 66560 := (dat1 (V11 m ρ) c).arrAt 3 cfg1.N
abbrev res (c : Dev nD) : (⟨3, ![1024, 257, 257]⟩ : Shape).Idx → EReal := W13 m ρ c (Proc.devRef .tc main_v24)

theorem res_eq (c : Dev nD) : res m ρ c
    = shapeCast S1024x257x257 (extractStridedSlice S1024x66049 ![0, 0] (outArr m ρ c) slices_S1024x66560_S1024x66049_0_0) shapeCasts_S1024x66049_S1024x257x257 := by
  show W13 m ρ c (Proc.devRef .tc main_v24) = _
  dsimp only [W13]
  simp only [hostOps2]
  after_results
  rw [show W12 m ρ c (Proc.devRef .tc main_v22) = (dat1 (V11 m ρ) c).arrAt 3 cfg1.N from W12_arr m ρ c 3]
  all_goals rfl

/-! ## The padded arrays read at an entry -/

/-- The padding value is zero. -/
theorem padv_apply (i : (⟨0, ![]⟩ : Shape).Idx) : padv i = 0 := by
  show ((((0#32 : BitVec 32).toInt : ℤ) : ℝ) : EReal) = 0
  simp

/-- The padded input's first 116 columns are the concatenated input's … -/
theorem xin_lo (c : Dev nD) (i : Fin 1024) (k : Fin 116) :
    xin m ρ c (ix2 i (Fin.castAdd 12 k)) = xcat m c (ix2 i k) := by
  rw [xin_eq]
  show pad S1024x128 ![0, 0] ![0, 12] ![0, 0] (xcat m c) padv pads_S1024x116_S1024x128_000_0120 h_S_ (ix2 i (Fin.castAdd 12 k)) = _
  refine pad_apply_of_inside _ _ _ _ _ _ _ _ _ (fun a => ?_)
  match a with
  | ⟨0, _⟩ => show i.val = 0 + i.val * (0 + 1); omega
  | ⟨1, _⟩ => show k.val = 0 + k.val * (0 + 1); omega

/-- … and its last 12 columns are zero. -/
theorem xin_hi (c : Dev nD) (i : Fin 1024) (p : Fin 12) :
    xin m ρ c (ix2 i (Fin.natAdd 116 p)) = 0 := by
  rw [xin_eq]
  show pad S1024x128 ![0, 0] ![0, 12] ![0, 0] (xcat m c) padv pads_S1024x116_S1024x128_000_0120 h_S_ (ix2 i (Fin.natAdd 116 p)) = _
  refine (pad_apply_of_not_inside _ _ _ _ _ _ _ _ (⟨1, by decide⟩ : Fin S1024x116.rank) (by
    show ¬(0 ≤ 116 + p.val ∧ (116 + p.val - 0) % (0 + 1) = 0 ∧ (116 + p.val - 0) / (0 + 1) < 116); omega)).trans ?_
  exact padv_apply _

/-- The padded first weight matrix's first 116 rows are the weight matrix's. -/
theorem w1_lo (c : Dev nD) (k : Fin 116) (n : Fin 256) :
    w1 m ρ c (ix2 (Fin.castAdd 12 k) n) = a3 m c (ix2 k n) := by
  rw [w1_eq]
  show pad S128x256 ![0, 0] ![12, 0] ![0, 0] (a3 m c) padv pads_S116x256_S128x256_0120_000 h_S_ (ix2 (Fin.castAdd 12 k) n) = _
  refine pad_apply_of_inside _ _ _ _ _ _ _ _ _ (fun a => ?_)
  match a with
  | ⟨0, _⟩ => show k.val = 0 + k.val * (0 + 1); omega
  | ⟨1, _⟩ => show n.val = 0 + n.val * (0 + 1); omega

/-- Each bias row is its bias vector. -/
theorem b1_row (c : Dev nD) : row0 (b1 m ρ c) = vec (a4 m c) := by
  funext n
  rw [b1_eq]
  show shapeCast S1x256 (a4 m c) shapeCasts_S256_S1x256 (ix2 (0 : Fin 1) n) = a4 m c (ix1 n)
  exact shapeCast_apply _ _ _ _ (by
    rw [Shape.rowMajor_val_one, Shape.rowMajor_val_two]
    show n.val = 0 * 256 + n.val; omega)
theorem b2_row (c : Dev nD) : row0 (b2 m ρ c) = vec (a6 m c) := by
  funext n
  rw [b2_eq]
  show shapeCast S1x512 (a6 m c) shapeCasts_S512_S1x512 (ix2 (0 : Fin 1) n) = a6 m c (ix1 n)
  exact shapeCast_apply _ _ _ _ (by
    rw [Shape.rowMajor_val_one, Shape.rowMajor_val_two]
    show n.val = 0 * 512 + n.val; omega)
theorem b3_row (c : Dev nD) : row0 (b3 m ρ c) = vec (a8 m c) := by
  funext n
  rw [b3_eq]
  show shapeCast S1x1024 (a8 m c) shapeCasts_S1024_S1x1024 (ix2 (0 : Fin 1) n) = a8 m c (ix1 n)
  exact shapeCast_apply _ _ _ _ (by
    rw [Shape.rowMajor_val_one, Shape.rowMajor_val_two]
    show n.val = 0 * 1024 + n.val; omega)

/-- The padded output weights' first 66049 columns are the output weights'. -/
theorem wout_lo (c : Dev nD) (k : Fin 1024) (n : Fin 66049) :
    wout m ρ c (ix2 k (Fin.castAdd 511 n)) = a9 m c (ix2 k n) := by
  rw [wout_eq]
  show pad S1024x66560 ![0, 0] ![0, 511] ![0, 0] (a9 m c) padv pads_S1024x66049_S1024x66560_000_05110 h_S_ (ix2 k (Fin.castAdd 511 n)) = _
  refine pad_apply_of_inside _ _ _ _ _ _ _ _ _ (fun a => ?_)
  match a with
  | ⟨0, _⟩ => show k.val = 0 + k.val * (0 + 1); omega
  | ⟨1, _⟩ => show n.val = 0 + n.val * (0 + 1); omega

/-- The padded output bias row's first 66049 entries are the output bias's. -/
theorem bout_lo (c : Dev nD) (n : Fin 66049) :
    row0 (bout m ρ c) (Fin.castAdd 511 n) = vec (a10 m c) n := by
  rw [bout_eq]
  show shapeCast S1x66560 (pad S66560 ![0] ![511] ![0] (a10 m c) padv pads_S66049_S66560_05110 h_S_) shapeCasts_S66560_S1x66560 (ix2 (0 : Fin 1) (Fin.castAdd 511 n)) = a10 m c (ix1 n)
  refine (shapeCast_apply _ _ _ (ix1 (Fin.castAdd 511 n)) (by
    rw [Shape.rowMajor_val_one, Shape.rowMajor_val_two]
    show n.val = 0 * 66560 + n.val; omega)).trans ?_
  refine pad_apply_of_inside _ _ _ _ _ _ _ _ _ (fun a => ?_)
  match a with
  | ⟨0, _⟩ => show n.val = 0 + n.val * (0 + 1); omega

/-- The flat output column of the entry (p, q) of a 257 × 257 picture. -/
abbrev flat (p q : Fin 257) : Fin 66049 := ⟨257 * p.val + q.val, by have := p.isLt; have := q.isLt; omega⟩

/-- The result at (r, p, q) is the head region's output array at row r and flat column 257·p + q. -/
theorem res_apply (c : Dev nD) (r : Fin 1024) (p q : Fin 257) :
    res m ρ c (ix3 r p q) = outArr m ρ c (ix2 r (Fin.castAdd 511 (flat p q))) := by
  rw [res_eq]
  have hr := r.isLt; have hp := p.isLt; have hq := q.isLt
  refine (shapeCast_apply _ _ (ix3 r p q) (ix2 r (flat p q)) (by
    rw [Shape.rowMajor_val_two, Shape.rowMajor_val_three]
    show r.val * 66049 + (257 * p.val + q.val) = (r.val * 257 + p.val) * 257 + q.val; omega)).trans ?_
  refine extractStridedSlice_apply _ _ _ _ _ (fun a => ?_)
  match a with
  | ⟨0, _⟩ => show r.val = 0 + r.val; omega
  | ⟨1, _⟩ => show 257 * p.val + q.val = 0 + (257 * p.val + q.val); omega

end Cert.KernelIdeal.Host

end
-- ==== Proof.Payload.lean ====
/-
  The two kernel bodies' stored values as matrices: the trunk body stores three dense layers of its row block, the
  head body stores the logistic head of its column block.
-/
import proofs.«116190_j67053029425158_1_alg».proof.Proof.Gen.KernelIdeal.Skeleton
import proofs.«116190_j67053029425158_1_alg».proof.Proof.Dense
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Cert.Mlp Idealize.ShloMosaic Idealize.ShloMosaic.ValueIdx

/-! ## A plain product `[A, K] × [K, N]` read at an entry

The four printed products all contract the left operand's axis 1 with the right operand's axis 0 and have no batch
axis. For any such dimension record the operand indices at the result entry (i, n) and contraction position k are
(i, k) and (k, n), so the product into a zero accumulator is the matrix product. -/

/-- A coordinate of a multi-index does not depend on how its axis number is written. -/
theorem coord_congr {S : Shape} (i : S.Idx) (p q : Nat) (hp : p < S.rank) (hq : q < S.rank) (h : p = q) :
    (i ⟨p, hp⟩).val = (i ⟨q, hq⟩).val := by subst h; rfl

section Plain
variable {A K N : Nat} (D : DotDims ⟨2, ![A, K]⟩ ⟨2, ![K, N]⟩ ⟨2, ![A, N]⟩)
  (hlc : D.lhsContracting = [1]) (hrc : D.rhsContracting = [0]) (hln : D.lhsNonContracting = [0])
  (hrn : D.rhsNonContracting = [1]) (hlb : D.lhsBatch = []) (hrb : D.rhsBatch = [])
include hlc hrc hln hrn hlb hrb

/-- One axis is contracted. -/
theorem plain_contr_rank : D.contr.rank = 1 := by rw [D.rank_contr, hlc]; rfl

/-- Its extent is the shared inner extent `K`. -/
theorem plain_contr_size : D.contr.size ⟨0, by rw [plain_contr_rank D hlc hrc hln hrn hlb hrb]; exact Nat.one_pos⟩ = K := by
  have h := D.size_contr 0 (by rw [hlc]; exact Nat.one_pos)
  rw [h]
  simp only [hlc]
  rfl

/-- The left operand's row coordinate is the result's row coordinate. -/
theorem plain_lhs_0 (i : (⟨2, ![A, N]⟩ : Shape).Idx) (q : D.contr.Idx) : (D.lhsIdx i q 0).val = (i 0).val := by
  unfold DotDims.lhsIdx
  rw [dif_neg (show ¬(0 : Fin 2) ∈ D.lhsBatch by rw [hlb]; exact List.not_mem_nil), dif_pos (show (0 : Fin 2) ∈ D.lhsNonContracting by rw [hln]; exact List.mem_singleton.mpr rfl)]
  simp only [Fin.val_cast]
  refine coord_congr i _ _ _ _ ?_
  simp [hlb, hln]

/-- The left operand's column coordinate is the contraction position. -/
theorem plain_lhs_1 (i : (⟨2, ![A, N]⟩ : Shape).Idx) (q : D.contr.Idx) :
    (D.lhsIdx i q 1).val = (q ⟨0, by rw [plain_contr_rank D hlc hrc hln hrn hlb hrb]; exact Nat.one_pos⟩).val :=
  D.lhsIdx_val_of_single hlc i q

/-- The right operand's row coordinate is the contraction position. -/
theorem plain_rhs_0 (i : (⟨2, ![A, N]⟩ : Shape).Idx) (q : D.contr.Idx) :
    (D.rhsIdx i q 0).val = (q ⟨0, by rw [plain_contr_rank D hlc hrc hln hrn hlb hrb]; exact Nat.one_pos⟩).val :=
  D.rhsIdx_val_of_single hrc i q

/-- The right operand's column coordinate is the result's column coordinate. -/
theorem plain_rhs_1 (i : (⟨2, ![A, N]⟩ : Shape).Idx) (q : D.contr.Idx) : (D.rhsIdx i q 1).val = (i 1).val := by
  unfold DotDims.rhsIdx
  rw [dif_neg (show ¬(1 : Fin 2) ∈ D.rhsBatch by rw [hrb]; exact List.not_mem_nil), dif_pos (show (1 : Fin 2) ∈ D.rhsNonContracting by rw [hrn]; exact List.mem_singleton.mpr rfl)]
  simp only [Fin.val_cast]
  refine coord_congr i _ _ _ _ ?_
  simp [hlb, hln, hrn]

/-- A plain rows-by-columns product into a zero accumulator, read at (i, n): the sum over the contracted axis. -/
theorem plain_matmul_apply {φ₁ φ₂ : FTy} (l : FVec Ideal ⟨2, ![A, K]⟩ φ₁) (r : FVec Ideal ⟨2, ![K, N]⟩ φ₂) (i : Fin A) (n : Fin N) :
    matmul D none l r (constant (F := Ideal) ⟨2, ![A, N]⟩ .f32 0x00000000#32) (ix2 i n) = ∑ k : Fin K, l (ix2 i k) * r (ix2 k n) := by
  have hr := plain_contr_rank D hlc hrc hln hrn hlb hrb
  have hs := plain_contr_size D hlc hrc hln hrn hlb hrb
  simp only [matmul]
  rw [Ideal.matmul_constant_zero_apply, ← Equiv.sum_comp (ValueIdx.contrEquiv1 D K hr hs).symm]
  refine Finset.sum_congr rfl fun k _ => ?_
  have hk := ValueIdx.contrEquiv1_symm_val D K hr hs k
  have el : D.lhsIdx (ix2 i n) ((ValueIdx.contrEquiv1 D K hr hs).symm k) = ix2 i k := funext fun a => Fin.ext (by
    match a with
    | ⟨0, _⟩ => exact plain_lhs_0 D hlc hrc hln hrn hlb hrb _ _
    | ⟨1, _⟩ => exact (plain_lhs_1 D hlc hrc hln hrn hlb hrb _ _).trans hk)
  have er : D.rhsIdx (ix2 i n) ((ValueIdx.contrEquiv1 D K hr hs).symm k) = ix2 k n := funext fun a => Fin.ext (by
    match a with
    | ⟨0, _⟩ => exact (plain_rhs_0 D hlc hrc hln hrn hlb hrb _ _).trans hk
    | ⟨1, _⟩ => exact plain_rhs_1 D hlc hrc hln hrn hlb hrb _ _)
  rw [el, er]

/-- The pre-activation as the kernel computes it — the product into a zero accumulator plus the bias row broadcast over
    the rows — is `affine`. -/
theorem plain_affine_eq {φ₁ φ₂ : FTy} (l : FVec Ideal ⟨2, ![A, K]⟩ φ₁) (w : FVec Ideal ⟨2, ![K, N]⟩ φ₂)
    (b : FVec Ideal ⟨2, ![1, N]⟩ .f32) (hbc : (⟨2, ![1, N]⟩ : Shape).Broadcasts ⟨2, ![A, N]⟩) :
    (addf (matmul D none l w (constant (F := Ideal) ⟨2, ![A, N]⟩ .f32 0x00000000#32)) (broadcastTo ⟨2, ![A, N]⟩ b hbc) : Mat A N)
      = affine (l : Mat A K) (w : Mat K N) (row0 b) := by
  funext j
  obtain ⟨p, q, rfl⟩ : ∃ (p : Fin A) (q : Fin N), j = ix2 p q := ⟨j 0, j 1, eq_ix2 j⟩
  refine (addf_apply _ _ _).trans ?_
  rw [plain_matmul_apply D hlc hrc hln hrn hlb hrb l w p q, broadcastTo_1b_ab_apply b hbc p q]
  rfl

/-- One layer of the trunk: product, bias, rectifier against the broadcast zero. -/
theorem plain_dense_eq {φ₁ φ₂ : FTy} (l : FVec Ideal ⟨2, ![A, K]⟩ φ₁) (w : FVec Ideal ⟨2, ![K, N]⟩ φ₂)
    (b : FVec Ideal ⟨2, ![1, N]⟩ .f32) (hbc : (⟨2, ![1, N]⟩ : Shape).Broadcasts ⟨2, ![A, N]⟩) :
    (maximumf (addf (matmul D none l w (constant (F := Ideal) ⟨2, ![A, N]⟩ .f32 0x00000000#32)) (broadcastTo ⟨2, ![A, N]⟩ b hbc))
        (broadcast ⟨2, ![A, N]⟩ (Scalar.ofBits (F := Ideal) .f32 0x00000000#32)) : Mat A N)
      = dense (l : Mat A K) (w : Mat K N) (row0 b) := by
  funext j
  refine (maximumf_apply _ _ _).trans ?_
  rw [broadcast_apply]
  unfold dense
  rw [← plain_affine_eq D hlc hrc hln hrn hlb hrb l w b hbc]
  exact congrArg (max _) Ideal.ofBits_zero_f32

/-- The head: product, bias, logistic. -/
theorem plain_head_eq {φ₁ φ₂ : FTy} (l : FVec Ideal ⟨2, ![A, K]⟩ φ₁) (w : FVec Ideal ⟨2, ![K, N]⟩ φ₂)
    (b : FVec Ideal ⟨2, ![1, N]⟩ .f32) (hbc : (⟨2, ![1, N]⟩ : Shape).Broadcasts ⟨2, ![A, N]⟩) :
    (logistic (addf (matmul D none l w (constant (F := Ideal) ⟨2, ![A, N]⟩ .f32 0x00000000#32)) (broadcastTo ⟨2, ![A, N]⟩ b hbc)) : Mat A N)
      = head (l : Mat A K) (w : Mat K N) (row0 b) := by
  funext j
  unfold head
  rw [← plain_affine_eq D hlc hrc hln hrn hlb hrb l w b hbc]
  rfl

end Plain

/-- The trunk body's stored value is three dense layers of its input block. -/
theorem trunk_pay (v0 : Vec Ideal S512x128 .bf16) (v2 : Vec Ideal S128x256 .bf16) (v5 : Vec Ideal S1x256 .f32)
    (v12 : Vec Ideal S256x512 .bf16) (v15 : Vec Ideal S1x512 .f32) (v22 : Vec Ideal S512x1024 .bf16) (v25 : Vec Ideal S1x1024 .f32) :
    (k0_pay1 (F := Ideal) v0 v2 v5 v12 v15 v22 v25 : Mat 512 1024)
      = dense (dense (dense (v0 : Mat 512 128) (v2 : Mat 128 256) (row0 v5)) (v12 : Mat 256 512) (row0 v15)) (v22 : Mat 512 1024) (row0 v25) := by
  -- the casts to the same shape are identities; the narrowing to bf16 changes no value on the extended reals, so
  -- each layer's operand is the previous layer's value, and the layers are peeled from the outside in
  unfold k0_pay1
  simp only [shapeCast_self]
  refine (plain_dense_eq dot_S512x512_S512x1024_S512x1024_1_0_0_1_n_n rfl rfl rfl rfl rfl rfl _ v22 v25 _).trans ?_
  refine congrArg (fun x => dense x (v22 : Mat 512 1024) (row0 v25)) ?_
  refine (plain_dense_eq dot_S512x256_S256x512_S512x512_1_0_0_1_n_n rfl rfl rfl rfl rfl rfl _ v12 v15 _).trans ?_
  refine congrArg (fun x => dense x (v12 : Mat 256 512) (row0 v15)) ?_
  exact plain_dense_eq dot_S512x128_S128x256_S512x256_1_0_0_1_n_n rfl rfl rfl rfl rfl rfl v0 v2 v5 _

/-- The head body's stored value is the logistic head of its blocks. -/
theorem head_pay (v0 : Vec Ideal S1024x1024 .bf16) (v2 : Vec Ideal S1024x1280 .bf16) (v5 : Vec Ideal S1x1280 .f32) :
    (k1_pay1 (F := Ideal) v0 v2 v5 : Mat 1024 1280) = head (v0 : Mat 1024 1024) (v2 : Mat 1024 1280) (row0 v5) := by
  unfold k1_pay1
  simp only [shapeCast_self]
  exact plain_head_eq dot_S1024x1024_S1024x1280_S1024x1280_1_0_0_1_n_n rfl rfl rfl rfl rfl rfl v0 v2 v5 _

end Cert.KernelIdeal.Pay

end
-- ==== Proof.Region0.lean ====
/-
  The trunk region's output array: each of the two grid points writes one block of 512 rows, and block t is three
  dense layers of rows 512·t … 512·t + 511 of the padded input; a dense layer works row by row, so the two blocks are
  the two halves of the three layers applied to the whole padded input.
-/
import proofs.«116190_j67053029425158_1_alg».proof.Proof.Gen.KernelIdeal.Frame
import proofs.«116190_j67053029425158_1_alg».proof.Proof.Payload
import Idealize.ShloMosaic.Lib.Pipeline.Value

set_option maxRecDepth 16384

noncomputable section

namespace Cert.KernelIdeal.Reg0

open Cert.KernelIdeal Cert.KernelIdeal.Gen Cert.Mlp Idealize.ShloMosaic Idealize.ShloMosaic.TcCoe Idealize.ShloMosaic.ValueIdx Idealize.SL.Sem
open Idealize.ShloMosaic.Pipeline (Dat)

/-- A dense layer's entry at (i, n) reads only row i of its input: two inputs that agree on the two rows, with the
    same weights and bias, give the same entry in the same column. -/
theorem dense_rows {A A' K N : Nat} (x : Mat A K) (x' : Mat A' K) (w : Mat K N) (b : Fin N → EReal)
    (j : (⟨2, ![A, N]⟩ : Shape).Idx) (j' : (⟨2, ![A', N]⟩ : Shape).Idx) (hc : (j 1).val = (j' 1).val)
    (hx : ∀ k : Fin K, x (ix2 (rowOf j) k) = x' (ix2 (rowOf j') k)) :
    dense x w b j = dense x' w b j' := by
  have e : colOf j = colOf j' := Fin.ext hc
  exact dense_congr x w b x' w b j j' hx (fun k => by rw [e]) (by rw [e])

variable (V : (c : Dev nD) → (b : Ref sig .tc) → Buf (Elt Ideal) ((c : Thread nD τ).loc b))

theorem hz : (![0, 0] : Fin 2 → Nat) = fun _ => 0 := funext fun a => by fin_cases a <;> rfl

/-- The padded input, the three weight matrices and the three bias rows as the region finds them. -/
abbrev xin (c : Dev nD) : Mat 1024 128 := V c main_v9
abbrev w1 (c : Dev nD) : Mat 128 256 := V c main_v11
abbrev b1 (c : Dev nD) : Mat 1 256 := V c main_v12
abbrev w2 (c : Dev nD) : Mat 256 512 := V c main_v13
abbrev b2 (c : Dev nD) : Mat 1 512 := V c main_v14
abbrev w3 (c : Dev nD) : Mat 512 1024 := V c main_v15
abbrev b3 (c : Dev nD) : Mat 1 1024 := V c main_v16

/-- What the output array ends holding: three dense layers of the whole padded input. -/
abbrev G (c : Dev nD) : Mat 1024 1024 :=
  dense (dense (dense (xin V c) (w1 V c) (row0 (b1 V c))) (w2 V c) (row0 (b2 V c))) (w3 V c) (row0 (b3 V c))

/-- The printed index maps over the grid: the input and the output move along the rows with the grid point, the
    weights and biases are one block each. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Block t of the padded input is its rows 512·t … 512·t + 511. -/
theorem blk_x (c : Dev nD) (t : Fin cfg0.N) (y : S512x128.Idx) (i : S1024x128.Idx)
    (h0 : (i 0).val = 512 * t.val + (y 0).val) (h1 : (i 1).val = (y 1).val) :
    (iblk0 V c 0 t : Mat 512 128) y = xin V c i := by
  obtain ⟨e0, e1, -⟩ := idx_facts t
  have h : ((cfg0.win 0).blk t).view.emb y = i := by
    funext a; apply Fin.ext
    match a with
    | ⟨0, _⟩ => show win0_0.index t (0 : Fin 2) * 512 + 1 * (y 0).val = (i 0).val; omega
    | ⟨1, _⟩ => show win0_0.index t (1 : Fin 2) * 128 + 1 * (y 1).val = (i 1).val; omega
  show V c main_v9 (((cfg0.win 0).blk t).view.emb y) = V c main_v9 i
  rw [h]

/-- Each weight matrix and bias row is one block: the block is the array. -/
theorem blk_w1 (c : Dev nD) (t : Fin cfg0.N) : (iblk0 V c 1 t : Mat 128 256) = w1 V c := by
  obtain ⟨-, -, e0, e1, -⟩ := idx_facts t
  funext y
  have h : ((cfg0.win 1).blk t).view.emb y = y := by
    funext a; apply Fin.ext
    match a with
    | ⟨0, _⟩ => show win0_1.index t (0 : Fin 2) * 128 + 1 * (y 0).val = (y 0).val; omega
    | ⟨1, _⟩ => show win0_1.index t (1 : Fin 2) * 256 + 1 * (y 1).val = (y 1).val; omega
  show V c main_v11 (((cfg0.win 1).blk t).view.emb y) = V c main_v11 y
  rw [h]
theorem blk_b1 (c : Dev nD) (t : Fin cfg0.N) : (iblk0 V c 2 t : Mat 1 256) = b1 V c := by
  obtain ⟨-, -, -, -, e0, e1, -⟩ := idx_facts t
  funext y
  have h : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 256 + 1 * (y 1).val = (y 1).val; omega
  show V c main_v12 (((cfg0.win 2).blk t).view.emb y) = V c main_v12 y
  rw [h]
theorem blk_w2 (c : Dev nD) (t : Fin cfg0.N) : (iblk0 V c 3 t : Mat 256 512) = w2 V c := by
  obtain ⟨-, -, -, -, -, -, e0, e1, -⟩ := idx_facts t
  funext y
  have h : ((cfg0.win 3).blk t).view.emb y = y := by
    funext a; apply Fin.ext
    match a with
    | ⟨0, _⟩ => show win0_3.index t (0 : Fin 2) * 256 + 1 * (y 0).val = (y 0).val; omega
    | ⟨1, _⟩ => show win0_3.index t (1 : Fin 2) * 512 + 1 * (y 1).val = (y 1).val; omega
  show V c main_v13 (((cfg0.win 3).blk t).view.emb y) = V c main_v13 y
  rw [h]
theorem blk_b2 (c : Dev nD) (t : Fin cfg0.N) : (iblk0 V c 4 t : Mat 1 512) = b2 V c := by
  obtain ⟨-, -, -, -, -, -, -, -, e0, e1, -⟩ := idx_facts t
  funext y
  have h : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 512 + 1 * (y 1).val = (y 1).val; omega
  show V c main_v14 (((cfg0.win 4).blk t).view.emb y) = V c main_v14 y
  rw [h]
theorem blk_w3 (c : Dev nD) (t : Fin cfg0.N) : (iblk0 V c 5 t : Mat 512 1024) = w3 V c := by
  obtain ⟨-, -, -, -, -, -, -, -, -, -, e0, e1, -⟩ := idx_facts t
  funext y
  have h : ((cfg0.win 5).blk t).view.emb y = y := by
    funext a; apply Fin.ext
    match a with
    | ⟨0, _⟩ => show win0_5.index t (0 : Fin 2) * 512 + 1 * (y 0).val = (y 0).val; omega
    | ⟨1, _⟩ => show win0_5.index t (1 : Fin 2) * 1024 + 1 * (y 1).val = (y 1).val; omega
  show V c main_v15 (((cfg0.win 5).blk t).view.emb y) = V c main_v15 y
  rw [h]
theorem blk_b3 (c : Dev nD) (t : Fin cfg0.N) : (iblk0 V c 6 t : Mat 1 1024) = b3 V c := by
  obtain ⟨-, -, -, -, -, -, -, -, -, -, -, -, e0, e1, -⟩ := idx_facts t
  funext y
  have h : ((cfg0.win 6).blk t).view.emb y = y := by
    funext a; apply Fin.ext
    match a with
    | ⟨0, _⟩ => show win0_6.index t (0 : Fin 2) * 1 + 1 * (y 0).val = (y 0).val; omega
    | ⟨1, _⟩ => show win0_6.index t (1 : Fin 2) * 1024 + 1 * (y 1).val = (y 1).val; omega
  show V c main_v16 (((cfg0.win 6).blk t).view.emb y) = V c main_v16 y
  rw [h]

/-- WHAT POINT t WRITES BACK is block t of the three layers of the whole padded input. -/
theorem flushed_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero hz]
  simp only [View.ld_unit_zero (S := S512x128) hz, View.ld_unit_zero (S := S128x256) hz, View.ld_unit_zero (S := S1x256) hz,
    View.ld_unit_zero (S := S256x512) hz, View.ld_unit_zero (S := S1x512) hz, View.ld_unit_zero (S := S512x1024) hz,
    View.ld_unit_zero (S := S1x1024) hz]
  rw [Pay.trunk_pay]
  obtain ⟨-, -, -, -, -, -, -, -, -, -, -, -, -, -, e0, e1⟩ := idx_facts t
  funext j
  show dense (dense (dense (iblk0 V c 0 t : Mat 512 128) (iblk0 V c 1 t : Mat 128 256) (row0 (iblk0 V c 2 t : Mat 1 256)))
      (iblk0 V c 3 t : Mat 256 512) (row0 (iblk0 V c 4 t : Mat 1 512))) (iblk0 V c 5 t : Mat 512 1024) (row0 (iblk0 V c 6 t : Mat 1 1024)) j
    = G V c (((cfg0.win 7).blk t).view.emb j)
  rw [blk_w1 V c t, blk_b1 V c t, blk_w2 V c t, blk_b2 V c t, blk_w3 V c t, blk_b3 V c t]
  have r0 : ((((cfg0.win 7).blk t).view.emb j) 0).val = 512 * t.val + (j 0).val := by
    show win0_7.index t (0 : Fin 2) * 512 + 1 * (j 0).val = 512 * t.val + (j 0).val; omega
  have r1 : ((((cfg0.win 7).blk t).view.emb j) 1).val = (j 1).val := by
    show win0_7.index t (1 : Fin 2) * 1024 + 1 * (j 1).val = (j 1).val; omega
  refine dense_rows _ _ _ _ j _ r1.symm (fun k => dense_rows _ _ _ _ _ _ rfl (fun k' => dense_rows _ _ _ _ _ _ rfl (fun k'' => ?_)))
  exact blk_x V c t _ _ r0 rfl

/-- An index of the array is in point t's block iff each coordinate is in the block's range on its axis. -/
theorem mem_blk (t : Fin cfg0.N) (i : S1024x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v17).slice (win0_7.rect t)).set ↔ _
  rw [View.set_slice_whole, Rect.mem_set_unit]
  exact Iff.rfl

/-- Every index of the array lies in the block of the point its row falls in. -/
theorem cover (i : S1024x1024.Idx) : ∃ t : Fin cfg0.N, (cfg0.win 7).flush t = true ∧ i ∈ ((cfg0.win 7).blk t).view.set := by
  have hi0 : (i 0).val < 1024 := (i 0).isLt
  have hi1 : (i 1).val < 1024 := (i 1).isLt
  have hN : cfg0.N = 2 := N_0
  let t : Fin cfg0.N := ⟨(i 0).val / 512, by rw [hN]; omega⟩
  refine ⟨t, flush0_7 t, ?_⟩
  obtain ⟨-, -, -, -, -, -, -, -, -, -, -, -, -, -, e0, e1⟩ := idx_facts t
  have ht : t.val = (i 0).val / 512 := rfl
  rw [mem_blk]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

/-- THE OUTPUT ARRAY after the region: three dense layers of the whole padded input as the region finds it. -/
theorem final (c : Dev nD) : (dat0 V c).arrAt 7 cfg0.N = G V c :=
  (dat0 V c).arrAt_eq_of_cover 7 (G V c) (fun t _ => flushed_eq V c t) (cover)

end Cert.KernelIdeal.Reg0

end
-- ==== Proof.Region1.lean ====
/-
  The head region's output array: each grid point writes one block of 1280 columns, and block t is the head of the
  whole hidden matrix with columns 1280·t … 1280·t + 1279 of the weight matrix and of the bias row; the 52 blocks cover
  the array, so the array ends as the head of the whole operands.
-/
import proofs.«116190_j67053029425158_1_alg».proof.Proof.Gen.KernelIdeal.Frame
import proofs.«116190_j67053029425158_1_alg».proof.Proof.Payload
import Idealize.ShloMosaic.Lib.Pipeline.Value

set_option maxRecDepth 16384

noncomputable section

namespace Cert.KernelIdeal.Reg1

open Cert.KernelIdeal Cert.KernelIdeal.Gen Cert.Mlp Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The hidden matrix, the padded weight matrix and the padded bias row as the region finds them. -/
abbrev hid (c : Dev nD) : Mat 1024 1024 := V c main_v17
abbrev wts (c : Dev nD) : Mat 1024 66560 := V c main_v19
abbrev bias (c : Dev nD) : Mat 1 66560 := V c main_v21

/-- What the output array ends holding: the head of the whole operands. -/
abbrev G (c : Dev nD) : Mat 1024 66560 := head (hid V c) (wts V c) (row0 (bias V c))

/-- The printed index maps over the grid: the hidden matrix is one block, the other three windows move along the
    columns with the grid point. -/
theorem idx_facts : ∀ t : Fin cfg1.N, win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- The hidden matrix's one block is the matrix. -/
theorem blk_hid (c : Dev nD) (t : Fin cfg1.N) (y : S1024x1024.Idx) :
    (iblk1 V c 0 t : Mat 1024 1024) y = hid V c y := by
  obtain ⟨e0, e1, -⟩ := idx_facts t
  have h : ((cfg1.win 0).blk t).view.emb y = y := by
    funext a; apply Fin.ext
    match a with
    | ⟨0, _⟩ => show win1_0.index t (0 : Fin 2) * 1024 + 1 * (y 0).val = (y 0).val; omega
    | ⟨1, _⟩ => show win1_0.index t (1 : Fin 2) * 1024 + 1 * (y 1).val = (y 1).val; omega
  show V c main_v17 (((cfg1.win 0).blk t).view.emb y) = V c main_v17 y
  rw [h]

/-- Block t of the weight matrix is its columns 1280·t … 1280·t + 1279. -/
theorem blk_wts (c : Dev nD) (t : Fin cfg1.N) (y : S1024x1280.Idx) (i : S1024x66560.Idx)
    (h0 : (i 0).val = (y 0).val) (h1 : (i 1).val = 1280 * t.val + (y 1).val) :
    (iblk1 V c 1 t : Mat 1024 1280) y = wts V c i := by
  obtain ⟨-, -, e0, e1, -⟩ := idx_facts t
  have h : ((cfg1.win 1).blk t).view.emb y = i := by
    funext a; apply Fin.ext
    match a with
    | ⟨0, _⟩ => show win1_1.index t (0 : Fin 2) * 1024 + 1 * (y 0).val = (i 0).val; omega
    | ⟨1, _⟩ => show win1_1.index t (1 : Fin 2) * 1280 + 1 * (y 1).val = (i 1).val; omega
  show V c main_v19 (((cfg1.win 1).blk t).view.emb y) = V c main_v19 i
  rw [h]

/-- Block t of the bias row is its entries 1280·t … 1280·t + 1279. -/
theorem blk_bias (c : Dev nD) (t : Fin cfg1.N) (y : S1x1280.Idx) (i : S1x66560.Idx)
    (h0 : (i 0).val = (y 0).val) (h1 : (i 1).val = 1280 * t.val + (y 1).val) :
    (iblk1 V c 2 t : Mat 1 1280) y = bias V c i := by
  obtain ⟨-, -, -, -, e0, e1, -⟩ := idx_facts t
  have h : ((cfg1.win 2).blk t).view.emb y = i := by
    funext a; apply Fin.ext
    match a with
    | ⟨0, _⟩ => show win1_2.index t (0 : Fin 2) * 1 + 1 * (y 0).val = (i 0).val; omega
    | ⟨1, _⟩ => show win1_2.index t (1 : Fin 2) * 1280 + 1 * (y 1).val = (i 1).val; omega
  show V c main_v21 (((cfg1.win 2).blk t).view.emb y) = V c main_v21 i
  rw [h]

/-- WHAT POINT t WRITES BACK is block t of the head of the whole operands. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S1024x1024) hz, View.ld_unit_zero (S := S1024x1280) hz, View.ld_unit_zero (S := S1x1280) hz]
  rw [Pay.head_pay]
  obtain ⟨-, -, -, -, -, -, e0, e1⟩ := idx_facts t
  funext j
  show head (iblk1 V c 0 t : Mat 1024 1024) (iblk1 V c 1 t : Mat 1024 1280) (row0 (iblk1 V c 2 t : Mat 1 1280)) j
    = head (hid V c) (wts V c) (row0 (bias V c)) (((cfg1.win 3).blk t).view.emb j)
  have r0 : ((((cfg1.win 3).blk t).view.emb j) 0).val = (j 0).val := by
    show win1_3.index t (0 : Fin 2) * 1024 + 1 * (j 0).val = (j 0).val; omega
  have r1 : ((((cfg1.win 3).blk t).view.emb j) 1).val = 1280 * t.val + (j 1).val := by
    show win1_3.index t (1 : Fin 2) * 1280 + 1 * (j 1).val = 1280 * t.val + (j 1).val; omega
  refine head_congr _ _ _ _ _ _ j _ (fun k => ?_) (fun k => ?_) ?_
  · rw [blk_hid]
    exact congrArg (hid V c) (funext fun a => Fin.ext (by
      match a with
      | ⟨0, _⟩ => exact r0.symm
      | ⟨1, _⟩ => rfl))
  · exact blk_wts V c t _ _ rfl r1
  · exact blk_bias V c t _ _ rfl r1

/-- An index of the array is in point t's block iff each coordinate is in the block's range on its axis. -/
theorem mem_blk (t : Fin cfg1.N) (i : S1024x66560.Idx) :
    i ∈ ((cfg1.win 3).blk t).view.set ↔ ∀ a : Fin 2, win1_3.index t a * S1024x1280.size a ≤ (i a).val ∧ (i a).val < win1_3.index t a * S1024x1280.size a + S1024x1280.size a := by
  show i ∈ ((View.whole main_v22).slice (win1_3.rect t)).set ↔ _
  rw [View.set_slice_whole, Rect.mem_set_unit]
  exact Iff.rfl

/-- Every index of the array lies in the block of the point its column falls in. -/
theorem cover (i : S1024x66560.Idx) : ∃ t : Fin cfg1.N, (cfg1.win 3).flush t = true ∧ i ∈ ((cfg1.win 3).blk t).view.set := by
  have hi0 : (i 0).val < 1024 := (i 0).isLt
  have hi1 : (i 1).val < 66560 := (i 1).isLt
  have hN : cfg1.N = 52 := N_1
  let t : Fin cfg1.N := ⟨(i 1).val / 1280, by rw [hN]; omega⟩
  refine ⟨t, flush1_3 t, ?_⟩
  obtain ⟨-, -, -, -, -, -, e0, e1⟩ := idx_facts t
  have ht : t.val = (i 1).val / 1280 := rfl
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1280 ≤ (i 1).val ∧ (i 1).val < win1_3.index t (1 : Fin 2) * 1280 + 1280; omega

/-- THE OUTPUT ARRAY after the region: the head of the whole operands as the region finds them. -/
theorem final (c : Dev nD) : (dat1 V c).arrAt 3 cfg1.N = G V c :=
  (dat1 V c).arrAt_eq_of_cover 3 (G V c) (fun t _ => flushed_eq V c t) (cover)

end Cert.KernelIdeal.Reg1

end
-- ==== Proof.KernelValue.lean ====
/-
  The kernel program's result, entry by entry: the head region's output array is the head of the trunk region's
  output array with the padded output weights and bias; the trunk region's output array is three dense layers of the
  padded input, which are three dense layers of the unpadded input (the 12 appended columns of the input are zero, so
  the appended products vanish); and the slice keeps exactly the columns the padding did not add.
-/
import proofs.«116190_j67053029425158_1_alg».proof.Proof.HostReads
import proofs.«116190_j67053029425158_1_alg».proof.Proof.Region0
import proofs.«116190_j67053029425158_1_alg».proof.Proof.Region1

set_option maxRecDepth 16384

noncomputable section

namespace Cert.KernelIdeal.KVal

open Cert.KernelIdeal Cert.KernelIdeal.Gen Cert.KernelIdeal.Host Cert.Mlp Idealize.ShloMosaic Idealize.ShloMosaic.TcCoe Idealize.ShloMosaic.ValueIdx Idealize.SL.Sem

variable (m : (ℓ : Loc nD τ sig) → Buf (Elt Ideal) ℓ) (ρ : Dev nD → PrngReg)

/-- The three dense layers of the concatenated input, over the argument arrays. -/
abbrev trunk (c : Dev nD) : Mat 1024 1024 :=
  dense (dense (dense (xcat m c) (a3 m c) (vec (a4 m c))) (a5 m c) (vec (a6 m c))) (a7 m c) (vec (a8 m c))

/-- The whole network over the argument arrays: the head of the three layers. -/
abbrev spec (c : Dev nD) : Mat 1024 66049 := head (trunk m c) (a9 m c) (vec (a10 m c))

/-- The hidden matrix the head region finds is the three layers of the unpadded input. -/
theorem trunk_eq (c : Dev nD) : hid m ρ c = trunk m c := by
  rw [hid_eq, Reg0.final (V5 m ρ) c]
  show dense (dense (dense (xin m ρ c) (w1 m ρ c) (row0 (b1 m ρ c))) (w2 m ρ c) (row0 (b2 m ρ c))) (w3 m ρ c) (row0 (b3 m ρ c)) = _
  rw [w2_eq, w3_eq, b1_row, b2_row, b3_row]
  have e := dense_pad (K := 116) (P := 12) (xcat m c) (a3 m c) (vec (a4 m c)) (xin m ρ c) (w1 m ρ c)
    (xin_lo m ρ c) (xin_hi m ρ c) (w1_lo m ρ c)
  exact congrArg (fun h : Mat 1024 256 => dense (dense h (a5 m c) (vec (a6 m c))) (a7 m c) (vec (a8 m c))) e

/-- THE RESULT at (r, p, q): the whole network at row r and flat column 257·p + q. -/
theorem kernel_eq (c : Dev nD) (r : Fin 1024) (p q : Fin 257) :
    res m ρ c (ix3 r p q) = spec m c (ix2 r (flat p q)) := by
  rw [res_apply, show outArr m ρ c = Reg1.G (V11 m ρ) c from Reg1.final (V11 m ρ) c]
  show head (hid m ρ c) (wout m ρ c) (row0 (bout m ρ c)) (ix2 r (Fin.castAdd 511 (flat p q)))
    = head (trunk m c) (a9 m c) (vec (a10 m c)) (ix2 r (flat p q))
  rw [trunk_eq]
  refine head_congr _ _ _ _ _ _ _ _ (fun k => rfl) (fun k => ?_) ?_
  · exact wout_lo m ρ c k (flat p q)
  · exact bout_lo m ρ c (flat p q)

end Cert.KernelIdeal.KVal

end
-- ==== Proof.RefValue.lean ====
/-
  The reference's result, entry by entry: three dense layers of the concatenated input and the logistic head, the
  flat output column 257·p + q laid out as (p, q).
-/
import proofs.«116190_j67053029425158_1_alg».proof.Proof.Gen.ReferenceIdeal.Read
import proofs.«116190_j67053029425158_1_alg».proof.Proof.Dense
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Read Cert.Mlp Idealize.ShloMosaic Idealize.ShloMosaic.ValueIdx

/-- The single-precision word of 1.0 denotes the extended real 1: sign 0, biased exponent 127, fraction 0. -/
theorem ofBits_one_f32 : Ideal.ofBits .f32 0x3F800000#32 = 1 := by
  simp [Ideal.ofBits, Ideal.ieee, -EReal.coe_mul]; norm_num

/-- The first layer as a whole matrix: the rectified sum of the concatenated input's row against the weight's
    column, plus the bias entry of that column. -/
theorem layer1 (x0 : (⟨S1024x100, .f32⟩ : BufTy).Contents (Elt Ideal)) (x1 : (⟨S1024, .i32⟩ : BufTy).Contents (Elt Ideal)) (x2 : (⟨S8x16, .f32⟩ : BufTy).Contents (Elt Ideal)) (x3 : (⟨S116x256, .f32⟩ : BufTy).Contents (Elt Ideal)) (x4 : (⟨S256, .f32⟩ : BufTy).Contents (Elt Ideal)) :
    (val_main_v12 (F := Ideal) x0 x1 x2 x3 x4 : Mat 1024 256)
      = dense (val_main_v7 (F := Ideal) x0 x1 x2 : Mat 1024 116) (x3 : Mat 116 256) (vec x4) := by
  funext j
  unfold dense affine
  rw [val_main_v12_apply, val_main_v11_apply, val_main_v8_apply, val_main_v10_apply, val_main_v9_apply,
    val_main_call0_v0_apply, val_main_call0_cst_apply, Ideal.ofBits_def, Ideal.ofBits_zero_f32,
    Ideal.maximumf_def, Ideal.addf_def]
  have hl : ∀ k : Fin 116, lidx_main_v8 j k = ix2 (rowOf j) k := fun k =>
    funext fun a => Fin.ext (by match a with | ⟨0, _⟩ => rfl | ⟨1, _⟩ => rfl)
  have hr : ∀ k : Fin 116, ridx_main_v8 j k = ix2 k (colOf j) := fun k =>
    funext fun a => Fin.ext (by match a with | ⟨0, _⟩ => rfl | ⟨1, _⟩ => rfl)
  have hb : idx_main_v9 (idx_main_v10 j) = ix1 (colOf j) :=
    funext fun a => Fin.ext (by match a with | ⟨0, _⟩ => rfl)
  rw [hb, Finset.sum_congr rfl fun k _ => by rw [hl k, hr k]]

/-- The second layer as a whole matrix, over the first layer's result. -/
theorem layer2 (x0 : (⟨S1024x100, .f32⟩ : BufTy).Contents (Elt Ideal)) (x1 : (⟨S1024, .i32⟩ : BufTy).Contents (Elt Ideal)) (x2 : (⟨S8x16, .f32⟩ : BufTy).Contents (Elt Ideal)) (x3 : (⟨S116x256, .f32⟩ : BufTy).Contents (Elt Ideal)) (x4 : (⟨S256, .f32⟩ : BufTy).Contents (Elt Ideal)) (x5 : (⟨S256x512, .f32⟩ : BufTy).Contents (Elt Ideal)) (x6 : (⟨S512, .f32⟩ : BufTy).Contents (Elt Ideal)) :
    (val_main_v17 (F := Ideal) x0 x1 x2 x3 x4 x5 x6 : Mat 1024 512)
      = dense (val_main_v12 (F := Ideal) x0 x1 x2 x3 x4 : Mat 1024 256) (x5 : Mat 256 512) (vec x6) := by
  funext j
  unfold dense affine
  rw [val_main_v17_apply, val_main_v16_apply, val_main_v13_apply, val_main_v15_apply, val_main_v14_apply,
    val_main_call1_v0_apply, val_main_call1_cst_apply, Ideal.ofBits_def, Ideal.ofBits_zero_f32,
    Ideal.maximumf_def, Ideal.addf_def]
  have hl : ∀ k : Fin 256, lidx_main_v13 j k = ix2 (rowOf j) k := fun k =>
    funext fun a => Fin.ext (by match a with | ⟨0, _⟩ => rfl | ⟨1, _⟩ => rfl)
  have hr : ∀ k : Fin 256, ridx_main_v13 j k = ix2 k (colOf j) := fun k =>
    funext fun a => Fin.ext (by match a with | ⟨0, _⟩ => rfl | ⟨1, _⟩ => rfl)
  have hb : idx_main_v14 (idx_main_v15 j) = ix1 (colOf j) :=
    funext fun a => Fin.ext (by match a with | ⟨0, _⟩ => rfl)
  rw [hb, Finset.sum_congr rfl fun k _ => by rw [hl k, hr k]]

/-- The third layer as a whole matrix, over the second layer's result. -/
theorem layer3 (x0 : (⟨S1024x100, .f32⟩ : BufTy).Contents (Elt Ideal)) (x1 : (⟨S1024, .i32⟩ : BufTy).Contents (Elt Ideal)) (x2 : (⟨S8x16, .f32⟩ : BufTy).Contents (Elt Ideal)) (x3 : (⟨S116x256, .f32⟩ : BufTy).Contents (Elt Ideal)) (x4 : (⟨S256, .f32⟩ : BufTy).Contents (Elt Ideal)) (x5 : (⟨S256x512, .f32⟩ : BufTy).Contents (Elt Ideal)) (x6 : (⟨S512, .f32⟩ : BufTy).Contents (Elt Ideal)) (x7 : (⟨S512x1024, .f32⟩ : BufTy).Contents (Elt Ideal)) (x8 : (⟨S1024, .f32⟩ : BufTy).Contents (Elt Ideal)) :
    (val_main_v22 (F := Ideal) x0 x1 x2 x3 x4 x5 x6 x7 x8 : Mat 1024 1024)
      = dense (val_main_v17 (F := Ideal) x0 x1 x2 x3 x4 x5 x6 : Mat 1024 512) (x7 : Mat 512 1024) (vec x8) := by
  funext j
  unfold dense affine
  rw [val_main_v22_apply, val_main_v21_apply, val_main_v18_apply, val_main_v20_apply, val_main_v19_apply,
    val_main_call2_v0_apply, val_main_call2_cst_apply, Ideal.ofBits_def, Ideal.ofBits_zero_f32,
    Ideal.maximumf_def, Ideal.addf_def]
  have hl : ∀ k : Fin 512, lidx_main_v18 j k = ix2 (rowOf j) k := fun k =>
    funext fun a => Fin.ext (by match a with | ⟨0, _⟩ => rfl | ⟨1, _⟩ => rfl)
  have hr : ∀ k : Fin 512, ridx_main_v18 j k = ix2 k (colOf j) := fun k =>
    funext fun a => Fin.ext (by match a with | ⟨0, _⟩ => rfl | ⟨1, _⟩ => rfl)
  have hb : idx_main_v19 (idx_main_v20 j) = ix1 (colOf j) :=
    funext fun a => Fin.ext (by match a with | ⟨0, _⟩ => rfl)
  rw [hb, Finset.sum_congr rfl fun k _ => by rw [hl k, hr k]]

/-- The head as a whole matrix: 1 / (1 + exp (-z)) with z the pre-activation over the third layer's result is the
    logistic function of z, the two constant words both denoting 1. -/
theorem layer4 (x0 : (⟨S1024x100, .f32⟩ : BufTy).Contents (Elt Ideal)) (x1 : (⟨S1024, .i32⟩ : BufTy).Contents (Elt Ideal)) (x2 : (⟨S8x16, .f32⟩ : BufTy).Contents (Elt Ideal)) (x3 : (⟨S116x256, .f32⟩ : BufTy).Contents (Elt Ideal)) (x4 : (⟨S256, .f32⟩ : BufTy).Contents (Elt Ideal)) (x5 : (⟨S256x512, .f32⟩ : BufTy).Contents (Elt Ideal)) (x6 : (⟨S512, .f32⟩ : BufTy).Contents (Elt Ideal)) (x7 : (⟨S512x1024, .f32⟩ : BufTy).Contents (Elt Ideal)) (x8 : (⟨S1024, .f32⟩ : BufTy).Contents (Elt Ideal)) (x9 : (⟨S1024x66049, .f32⟩ : BufTy).Contents (Elt Ideal)) (x10 : (⟨S66049, .f32⟩ : BufTy).Contents (Elt Ideal)) :
    (val_main_v32 (F := Ideal) x0 x1 x2 x3 x4 x5 x6 x7 x8 x9 x10 : Mat 1024 66049)
      = head (val_main_v22 (F := Ideal) x0 x1 x2 x3 x4 x5 x6 x7 x8 : Mat 1024 1024) (x9 : Mat 1024 66049) (vec x10) := by
  funext j
  unfold head Ideal.logistic affine
  rw [val_main_v32_apply, val_main_v31_apply, val_main_cst_1_apply, val_main_v30_apply, val_main_v29_apply,
    val_main_cst_apply, val_main_v28_apply, val_main_v27_apply, val_main_v26_apply, val_main_v23_apply,
    val_main_v25_apply, val_main_v24_apply, Ideal.ofBits_def, ofBits_one_f32, Ideal.hostDivf_def,
    Ideal.hostUnary_exp_def, Ideal.hostNegf_def, Ideal.negf_def, Ideal.addf_def, Ideal.addf_def]
  have hl : ∀ k : Fin 1024, lidx_main_v23 j k = ix2 (rowOf j) k := fun k =>
    funext fun a => Fin.ext (by match a with | ⟨0, _⟩ => rfl | ⟨1, _⟩ => rfl)
  have hr : ∀ k : Fin 1024, ridx_main_v23 j k = ix2 k (colOf j) := fun k =>
    funext fun a => Fin.ext (by match a with | ⟨0, _⟩ => rfl | ⟨1, _⟩ => rfl)
  have hb : idx_main_v24 (idx_main_v25 j) = ix1 (colOf j) :=
    funext fun a => Fin.ext (by match a with | ⟨0, _⟩ => rfl)
  rw [hb, Finset.sum_congr rfl fun k _ => by rw [hl k, hr k]]

/-- The reshape reads row r and flat column 257·p + q: the row-major position (r·257 + p)·257 + q is
    r·66049 + (257·p + q) with 257·p + q below 66049. -/
theorem idx33 (r : Fin 1024) (p q : Fin 257) :
    idx_main_v33 (ix3 r p q) = ix2 r (⟨257 * p.val + q.val, by have := p.isLt; have := q.isLt; omega⟩ : Fin 66049) := by
  funext a
  refine Fin.ext ?_
  have hr := r.isLt; have hp := p.isLt; have hq := q.isLt
  match a with
  | ⟨0, _⟩ =>
    show ((r.val * 257 + p.val) * 257 + q.val) / 66049 = r.val
    omega
  | ⟨1, _⟩ =>
    show ((r.val * 257 + p.val) * 257 + q.val) % 66049 = 257 * p.val + q.val
    omega

/-- The reference's result at (r, p, q) is the head, at row r and flat column 257·p + q, of three dense layers of the
    concatenated input. -/
theorem ref_eq (x0 : (⟨S1024x100, .f32⟩ : BufTy).Contents (Elt Ideal)) (x1 : (⟨S1024, .i32⟩ : BufTy).Contents (Elt Ideal))
    (x2 : (⟨S8x16, .f32⟩ : BufTy).Contents (Elt Ideal)) (x3 : (⟨S116x256, .f32⟩ : BufTy).Contents (Elt Ideal))
    (x4 : (⟨S256, .f32⟩ : BufTy).Contents (Elt Ideal)) (x5 : (⟨S256x512, .f32⟩ : BufTy).Contents (Elt Ideal))
    (x6 : (⟨S512, .f32⟩ : BufTy).Contents (Elt Ideal)) (x7 : (⟨S512x1024, .f32⟩ : BufTy).Contents (Elt Ideal))
    (x8 : (⟨S1024, .f32⟩ : BufTy).Contents (Elt Ideal)) (x9 : (⟨S1024x66049, .f32⟩ : BufTy).Contents (Elt Ideal))
    (x10 : (⟨S66049, .f32⟩ : BufTy).Contents (Elt Ideal)) (r : Fin 1024) (p q : Fin 257) :
    val_main_v33 (F := Ideal) x0 x1 x2 x3 x4 x5 x6 x7 x8 x9 x10 (ix3 r p q)
      = head (dense (dense (dense (val_main_v7 (F := Ideal) x0 x1 x2 : Mat 1024 116) (x3 : Mat 116 256) (vec x4))
            (x5 : Mat 256 512) (vec x6)) (x7 : Mat 512 1024) (vec x8)) (x9 : Mat 1024 66049) (vec x10)
          (ix2 r (⟨257 * p.val + q.val, by have := p.isLt; have := q.isLt; omega⟩ : Fin 66049)) := by
  rw [val_main_v33_apply, idx33 r p q, layer4, layer3, layer2, layer1]

end Cert.RefValue

end
-- ==== Proof.lean ====
/-
  The claims of the certificate.

  The kernel program pads the concatenated input (noise beside gathered embedding rows) with 12 zero columns, runs three
  rectified dense layers on two blocks of 512 rows in one kernel region, pads the output weights and bias with 511
  columns, runs the logistic head on 52 blocks of 1280 columns in a second region, and slices the padding off again.
  The reference applies the same three layers and the head, written 1 / (1 + exp (−z)), to the unpadded arrays.
  Over the extended reals both results are, at (r, p, q),

      logistic (∑ₖ h₃(r,k) · W_out(k, 257p+q) + b_out(257p+q)),   hᵢ = max (hᵢ₋₁ · Wᵢ + bᵢ) 0,   h₀ = the concatenated input:

  a format change is the identity, a product with a padded zero is zero whatever the other factor, a dense layer works
  row by row and the head column by column, so the blocks of the two regions tile the whole-matrix results; and
  1 / (1 + exp (−z)) is the logistic function by definition. No law used needs finiteness, so the precondition is
  never opened. The concatenated input is the same term of the arguments in both programs and is carried unopened.
-/
import proofs.«116190_j67053029425158_1_alg».proof.Defs
import proofs.«116190_j67053029425158_1_alg».proof.Proof.Gen.Kernel
import proofs.«116190_j67053029425158_1_alg».proof.Proof.Gen.Kernel.Skeleton
import proofs.«116190_j67053029425158_1_alg».proof.Proof.Gen.Kernel.Launch
import proofs.«116190_j67053029425158_1_alg».proof.Proof.Gen.Kernel.Points
import proofs.«116190_j67053029425158_1_alg».proof.Proof.Gen.Kernel.Frame
import proofs.«116190_j67053029425158_1_alg».proof.Proof.Gen.KernelIdeal
import proofs.«116190_j67053029425158_1_alg».proof.Proof.Gen.KernelIdeal.Skeleton
import proofs.«116190_j67053029425158_1_alg».proof.Proof.Gen.KernelIdeal.Launch
import proofs.«116190_j67053029425158_1_alg».proof.Proof.Gen.KernelIdeal.Points
import proofs.«116190_j67053029425158_1_alg».proof.Proof.Gen.KernelIdeal.Frame
import proofs.«116190_j67053029425158_1_alg».proof.Proof.Gen.ReferenceIdeal
import proofs.«116190_j67053029425158_1_alg».proof.Proof.Gen.ReferenceIdeal.Run
import proofs.«116190_j67053029425158_1_alg».proof.Proof.Gen.ReferenceIdeal.Read
import proofs.«116190_j67053029425158_1_alg».proof.Proof.Gen.Pre_finite_inputs
import proofs.«116190_j67053029425158_1_alg».proof.Proof.KRun
import proofs.«116190_j67053029425158_1_alg».proof.Proof.KernelValue
import proofs.«116190_j67053029425158_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs and keeps its arguments: the generated frame. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two idealized programs end with equal results: entry (r, p, q) of both is the whole network at row r and flat
    column 257·p + q of arguments that agree, the concatenated input the same term on both sides. -/
theorem algebraic : Cert.algebraic_KernelIdeal_ReferenceIdeal := by
  intro m ρ m' ρ' _ hagree
  refine ⟨fun c => Cert.KernelIdeal.Gen.W13 m ρ c (Proc.devRef .tc Cert.KernelIdeal.main_v24),
    Cert.KernelIdeal.KRun.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [h0, h1, h2, h3, h4, h5, h6, h7, h8, h9, h10, Cert.ReferenceIdeal.Read.val_main_v33_eq]
  funext i
  obtain ⟨r, p, q, rfl⟩ : ∃ (r : Fin 1024) (p q : Fin 257), i = ix3 r p q := ⟨i 0, i 1, i 2, eq_ix3 i⟩
  refine (Cert.RefValue.ref_eq _ _ _ _ _ _ _ _ _ _ _ r p q).trans ?_
  exact (Cert.KernelIdeal.KVal.kernel_eq m ρ c r p q).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
